-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S2x1024x1024 : Shape := ⟨3, ![2, 1024, 1024]⟩
abbrev S2 : Shape := ⟨1, ![2]⟩
abbrev S_ : Shape := ⟨0, ![]⟩
abbrev S8192x1024 : Shape := ⟨2, ![8192, 1024]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x2048, .f32⟩
  | .hbm, ⟨1, _⟩ => ⟨S16384x1024, .f32⟩
  | .local _ .vmem, ⟨0, _⟩ => ⟨S2x1024x1024, .f32⟩
  | _, _ => ⟨S8192x2048, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v18 : BitVec 32 := Scalar.muli v5 c8192_i32
  let c0_i32_13 : BitVec 32 := 0#32
  ![v18.toNat, 0]
def k0_off2 (d0 : Dev nD) : Fin 2 → Nat :=
  let c0_i32_14 : BitVec 32 := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c1024_i32 : BitVec 32 := 1024#32
  let v17 : BitVec 32 := Scalar.muli v9 c1024_i32
  ![0, v17.toNat]
def k0_dev2 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32_10 v19
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_11 : BitVec 32 := 2#32
  let v21 : BitVec 32 := Scalar.muli v9 c2_i32_11
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v23 : BitVec 32 := Scalar.muli v8 c1_i32_12
  let v24 : BitVec 32 := Scalar.addi v22 v23
  v24.toNat
def k0_off3 (d0 : Dev nD) : Fin 2 → Nat :=
  let c0_i32_20 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_15 : BitVec 32 := 1024#32
  let v27 : BitVec 32 := Scalar.muli v5 c1024_i32_15
  ![0, v27.toNat]
def k0_off4 (d0 : Dev nD) (c0_i32_27 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32_26 : BitVec 32 := 8192#32
  let v38 : BitVec 32 := Scalar.muli v5 c8192_i32_26
  let v39 : BitVec 32 := Scalar.addi v38 c0_i32_27
  let c0_i32_30 : BitVec 32 := 0#32
  ![v39.toNat, 0]
def k0_off5 (d0 : Dev nD) : Fin 2 → Nat :=
  let c1024_i32_38 : BitVec 32 := 1024#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_33 : BitVec 32 := 1024#32
  let v45 : BitVec 32 := Scalar.muli v5 c1024_i32_33
  ![1024, v45.toNat]
def k0_off6 (d0 : Dev nD) : Fin 2 → Nat :=
  let c2048_i32 : BitVec 32 := 2048#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_56 : BitVec 32 := 1024#32
  let v68 : BitVec 32 := Scalar.muli v5 c1024_i32_56
  ![2048, v68.toNat]
def k0_off7 (d0 : Dev nD) : Fin 2 → Nat :=
  let c3072_i32 : BitVec 32 := 3072#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_78 : BitVec 32 := 1024#32
  let v91 : BitVec 32 := Scalar.muli v5 c1024_i32_78
  ![3072, v91.toNat]
def k0_off8 (d0 : Dev nD) : Fin 2 → Nat :=
  let c4096_i32 : BitVec 32 := 4096#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_100 : BitVec 32 := 1024#32
  let v114 : BitVec 32 := Scalar.muli v5 c1024_i32_100
  ![4096, v114.toNat]
def k0_off9 (d0 : Dev nD) : Fin 2 → Nat :=
  let c5120_i32 : BitVec 32 := 5120#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_122 : BitVec 32 := 1024#32
  let v137 : BitVec 32 := Scalar.muli v5 c1024_i32_122
  ![5120, v137.toNat]
def k0_off10 (d0 : Dev nD) : Fin 2 → Nat :=
  let c6144_i32 : BitVec 32 := 6144#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_144 : BitVec 32 := 1024#32
  let v160 : BitVec 32 := Scalar.muli v5 c1024_i32_144
  ![6144, v160.toNat]
def k0_off11 (d0 : Dev nD) : Fin 2 → Nat :=
  let c7168_i32 : BitVec 32 := 7168#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_166 : BitVec 32 := 1024#32
  let v183 : BitVec 32 := Scalar.muli v5 c1024_i32_166
  ![7168, v183.toNat]

class Facts₀ : Prop where
  hamt_1 : (1#32 : BitVec 32).msb = false
  inb_S2_S1_0 : ∀ a, (![0] : Fin 1 → Nat) a + S1.size a ≤ S2.size a
  squeezes_S1_S_ : S1.Squeezes S_
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  hcc0_scratch1 : 0 + S2.numel ≤ 6
  hcc0_scratch2 : 2 + S2.numel ≤ 6
  hcc0_scratch3 : 4 + S_.numel ≤ 6
  hcc0_scratch4 : 5 + S_.numel ≤ 6
  k0_dev1_lt : ∀ d0 : Dev nD, (k0_dev1 d0) < nD
  k0_off1_inb : ∀ d0 : Dev nD, ∀ a, (k0_off1 d0) a + S8192x1024.size a ≤ S16384x1024.size a
  k0_off2_inb : ∀ d0 : Dev nD, ∀ a, (k0_off2 d0) a + S8192x1024.size a ≤ S8192x2048.size a
  k0_dev2_lt : ∀ d0 : Dev nD, (k0_dev2 d0) < nD
  k0_off3_inb : ∀ d0 : Dev nD, ∀ a, (k0_off3 d0) a + S1024x1024.size a ≤ S8192x2048.size a
  k0_off4_inb : ∀ d0 : Dev nD, ∀ (r : Fin 8), ∀ a, (k0_off4 d0 (BitVec.ofNat 32 (1024 * r.val))) a + S1024x1024.size a ≤ S16384x1024.size a
  k0_off5_inb : ∀ d0 : Dev nD, ∀ a, (k0_off5 d0) a + S1024x1024.size a ≤ S8192x2048.size a
  k0_off6_inb : ∀ d0 : Dev nD, ∀ a, (k0_off6 d0) a + S1024x1024.size a ≤ S8192x2048.size a
  k0_off7_inb : ∀ d0 : Dev nD, ∀ a, (k0_off7 d0) a + S1024x1024.size a ≤ S8192x2048.size a
  k0_off8_inb : ∀ d0 : Dev nD, ∀ a, (k0_off8 d0) a + S1024x1024.size a ≤ S8192x2048.size a
  k0_off9_inb : ∀ d0 : Dev nD, ∀ a, (k0_off9 d0) a + S1024x1024.size a ≤ S8192x2048.size a
  k0_off10_inb : ∀ d0 : Dev nD, ∀ a, (k0_off10 d0) a + S1024x1024.size a ≤ S8192x2048.size a
  k0_off11_inb : ∀ d0 : Dev nD, ∀ a, (k0_off11 d0) a + S1024x1024.size a ≤ S8192x2048.size a

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S_ := SemArray.consecutive 4 S_ hcc0_scratch3
abbrev cc0_scratch4 : DmaSems sig S_ := SemArray.consecutive 5 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 1
  | .vmem => 0
  | .smem => 0
  | _ => 0

abbrev bufTy : (tb : Table) → Fin (tcTables nBuf tb) → BufTy
  | .hbm, ⟨0, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelIdealSpec.lean ====
/-
The all-to-all along the mesh axis y, as ONE function of the devices' argument blocks.

Device c sits at coordinate yc c on axis y; peer c is the device with that coordinate flipped and the
other two kept. Device c's result has 16384 rows and 1024 columns: rows [8192·y', 8192·y' + 8192) come
from the argument block of the device of the pair {c, peer c} whose y-coordinate is y', and of that
block's 2048 columns the result takes the 1024 starting at 1024·yc c.
-/
import proofs.«900626_g7700000000000627_dist_a2a_v7x_xyz2x2x2_y_m8192_n1024_f32_1_alg».proof.KernelIdeal
import Idealize.ShloMosaic.Lib.ValueIdx

noncomputable section

namespace Cert.KernelIdeal.A2A

open Idealize.ShloMosaic Idealize.ShloMosaic.TcCoe Idealize.ShloMosaic.ValueIdx

variable {F : FTy → Type} [FloatOps F]

/-- The device's coordinate on mesh axis y (devices are numbered row-major over x, y, z, each of extent 2). -/
def yc (c : Dev nD) : ℕ := (c.val / 2) % 2

theorem yc_lt (c : Dev nD) : yc c < 2 := Nat.mod_lt _ (by decide)

/-- The device with the same x and z coordinates and the other y coordinate. -/
def peer (c : Dev nD) : Dev nD :=
  ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide
theorem yc_peer (c : Dev nD) : yc (peer c) = 1 - yc c := by revert c; decide
theorem yc_cases (c : Dev nD) : yc c = 0 ∨ yc c = 1 := by have := yc_lt c; omega

/-- Which device of the pair row r of the result comes from. -/
def srcDev (c : Dev nD) (r : ℕ) : Dev nD := if r / 8192 = yc c then c else peer c

/-- Where in that device's argument block the result's entry i is read. -/
def srcIdx (c : Dev nD) (i : S16384x1024.Idx) : S8192x2048.Idx :=
  ix2 ⟨(i 0).val % 8192, Nat.mod_lt _ (by decide)⟩
    ⟨1024 * yc c + (i 1).val, by have := yc_lt c; have := idx2_lt1 i; omega⟩

/-- Device c's result after the exchange, entry by entry, from the argument blocks in the memory m. -/
def outFinal (m : (ℓ : Loc nD τ sig) → Buf (Elt F) ℓ) (c : Dev nD) : Buf (Elt F) ((c : Thread nD τ).loc main_v1) :=
  fun i => m ((srcDev c (i 0).val : Thread nD τ).loc main_arg0) (srcIdx c i)

end Cert.KernelIdeal.A2A

end
-- ==== Proof.KernelIdealCells.lean ====
/-
The exchange's protocol on a device pair {c, peer c} under the rounds discipline.

Cells of device c: its barrier cell (one unit, signalled by peer c: "peer c is inside the kernel, and here
are the rows of its result that c is to fill"), its send cell (the credit of the block c sends: its source
columns are read to the end) and its receive cell (the same credit: the block peer c sends has landed in
c's result). The four semaphores of c's local copies are c's own counters and are not shared.
-/
import proofs.«900626_g7700000000000627_dist_a2a_v7x_xyz2x2x2_y_m8192_n1024_f32_1_alg».proof.Proof.KernelIdealSpec
import proofs.«900626_g7700000000000627_dist_a2a_v7x_xyz2x2x2_y_m8192_n1024_f32_1_alg».proof.Proof.Gen.KernelIdeal
import proofs.«900626_g7700000000000627_dist_a2a_v7x_xyz2x2x2_y_m8192_n1024_f32_1_alg».proof.Proof.Gen.KernelIdeal.Skeleton
import proofs.«900626_g7700000000000627_dist_a2a_v7x_xyz2x2x2_y_m8192_n1024_f32_1_alg».proof.Proof.Gen.KernelIdeal.Launch
import proofs.«900626_g7700000000000627_dist_a2a_v7x_xyz2x2x2_y_m8192_n1024_f32_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's rounds, the local copies' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb

instance ER_landsIn : (ER : Emb UB (MT nD τ sig Unit (Elt F) ℕ UU ℕ)).LandsIn (upEmb : UEmb _ (MT nD τ sig Unit (Elt F) ℕ UU ℕ)) := by unfold ER; infer_instance

/-! ## Devices -/

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pairing : Dev nD ≃ Dev nD := ⟨peer, peer, peer_peer, peer_peer⟩

/-! ## Memrefs and cells -/

abbrev xM : Memref sig .tc .hbm S8192x2048 .f32 := Memref.whole main_arg0
abbrev oM : Memref sig .tc .hbm S16384x1024 .f32 := Memref.whole main_v1
abbrev vM : Memref sig .tc .vmem S2x1024x1024 .f32 := Memref.whole cc0_scratch0

/-- The columns of device s's argument block that s sends to its peer, and the rows of the PEER's result they fill. -/
abbrev srcV (s : Dev nD) : Memref sig .tc .hbm S8192x1024 .f32 :=
  xM.slice (Rect.unit (s := S8192x2048) (k0_off2 s) S8192x1024.size (k0_off2_inb s)) (fun _ => rfl)
abbrev dstV (s : Dev nD) : Memref sig .tc .hbm S8192x1024 .f32 :=
  oM.slice (Rect.unit (s := S16384x1024) (k0_off1 s) S8192x1024.size (k0_off1_inb s)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's six own DMA semaphores as the launch indexes them: the two load cells, the two store cells, send, receive. -/
abbrev osem : Fin 6 → SemLoc sig := fun k => .dma ⟨k.val, k.isLt⟩
/-- The three cells the pair shares, as this proof indexes them: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one exchanged block (8192 × 1024 words), whatever its offset. -/
def N : ℕ := (dstV (0 : Dev nD)).view.dmaCredit
theorem N_pos : 0 < N := View.dmaCredit_pos _ (by decide)
theorem N_dst (s : Dev nD) : (dstV s).view.dmaCredit = N := rfl
theorem N_src (s : Dev nD) : (srcV s).view.dmaCredit = N := rfl

end Cert.KernelIdeal.A2A

end
-- ==== Proof.KernelIdealProto.lean ====
/-
The schedule of the exchange, what each device owes at launch, the levels, and the data of the launch.

One round. Device c's barrier cell has one duty of one unit, paid by peer c's signal, which hands c the rows of
peer c's result that c's block is to fill, at whatever they hold, and the fact that peer c has reached round 0 of
its receive cell. c's send cell has one duty of the block's credit, paid by c's own transfer once its source
columns are read: it hands c those columns back. c's receive cell has one duty of the same credit, paid by peer
c's transfer once it has landed: it hands c the rows of its own result that peer c filled, holding the values the
exchange puts there.
-/
import proofs.«900626_g7700000000000627_dist_a2a_v7x_xyz2x2x2_y_m8192_n1024_f32_1_alg».proof.Proof.KernelIdealCells

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- The rows of device d's result that the block sent by s fills, at contents f. -/
def rowsPts (d s : Dev nD) (f : Buf (Elt F) ((dstV s).view.loc (d : Thread nD τ))) : sProp 𝕄 :=
  (dstV s).view.loc (d : Thread nD τ) ↦[(dstV s).view.set]{fullShare} f
/-- The columns of device c's argument block that c sends, at the left half share, holding what the memory holds. -/
def colsPts (c : Dev nD) : sProp 𝕄 :=
  (srcV c).view.loc (c : Thread nD τ) ↦[(srcV c).view.set]{fullShare.left} m ((c : Thread nD τ).loc main_arg0)

def barPay (c : Dev nD) : sProp 𝕄 := iprop((∃ f, rowsPts (peer c) c f) ∗ reached ER (recvCell (peer c)) 0)
def recvPay (c : Dev nD) : sProp 𝕄 := rowsPts c (peer c) (outFinal m c)
def sendPay (c : Dev nD) : sProp 𝕄 := colsPts m c

instance rowsPts_storable (d s : Dev nD) (f) : BI.Storable (upEmb : UEmb _ 𝕄) (rowsPts (F := F) d s f) := by unfold rowsPts; infer_instance
instance colsPts_storable (c : Dev nD) : BI.Storable (upEmb : UEmb _ 𝕄) (colsPts (F := F) m c) := by unfold colsPts; infer_instance

/-! ## The schedule -/

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def a2aRd : Rounds.Schedule (GSem nD τ sig) Unit 𝕄 where
  duties g r := if r = 0 ∧ IsBar g then {()} else if r = 0 ∧ IsXfer g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance a2aRd_payload_storable (g : GSem nD τ sig) (r : ℕ) (d : Unit) :
    BI.Storable (upEmb : UEmb _ 𝕄) ((a2aRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

omit [FloatOps F] in
theorem duties_bar : (a2aRd (F := F) m).duties (barCell c) 0 = {()} := by dsimp only [a2aRd]; exact if_pos ⟨rfl, rfl, rfl⟩
omit [FloatOps F] in
theorem duties_send : (a2aRd (F := F) m).duties (sendCell c) 0 = {()} := by
  dsimp only [a2aRd]; rw [if_neg (fun h => not_bar_send c h.2)]; exact if_pos ⟨rfl, rfl, .inl rfl⟩
omit [FloatOps F] in
theorem duties_recv : (a2aRd (F := F) m).duties (recvCell c) 0 = {()} := by
  dsimp only [a2aRd]; rw [if_neg (fun h => not_bar_recv c h.2)]; exact if_pos ⟨rfl, rfl, .inr rfl⟩
omit [FloatOps F] in
theorem duties_later (g : GSem nD τ sig) : ∀ r, 1 ≤ r → (a2aRd (F := F) m).duties g r = ∅ :=
  fun r hr => by dsimp only [a2aRd]; rw [if_neg fun h => by omega, if_neg fun h => by omega]

omit [FloatOps F] in
theorem amount_bar (d : Unit) : (a2aRd (F := F) m).amount (barCell c) 0 d = 1 := by dsimp only [a2aRd]; exact if_pos rfl
omit [FloatOps F] in
theorem amount_send (d : Unit) : (a2aRd (F := F) m).amount (sendCell c) 0 d = N := by dsimp only [a2aRd]; exact if_neg send_ne_bar
omit [FloatOps F] in
theorem amount_recv (d : Unit) : (a2aRd (F := F) m).amount (recvCell c) 0 d = N := by dsimp only [a2aRd]; exact if_neg recv_ne_bar

omit [FloatOps F] in
theorem expect_bar : (a2aRd (F := F) m).expect (barCell c) 0 = 1 := by
  rw [Schedule.expect, duties_bar]; exact (Finset.sum_singleton _ _).trans (amount_bar m c ())
omit [FloatOps F] in
theorem expect_send : (a2aRd (F := F) m).expect (sendCell c) 0 = N := by
  rw [Schedule.expect, duties_send]; exact (Finset.sum_singleton _ _).trans (amount_send m c ())
omit [FloatOps F] in
theorem expect_recv : (a2aRd (F := F) m).expect (recvCell c) 0 = N := by
  rw [Schedule.expect, duties_recv]; exact (Finset.sum_singleton _ _).trans (amount_recv m c ())

omit [FloatOps F] in
theorem payload_bar (d : Unit) : (a2aRd (F := F) m).payload (barCell c) 0 d = barPay c := by dsimp only [a2aRd]; rw [if_pos rfl]
omit [FloatOps F] in
theorem payload_send (d : Unit) : (a2aRd (F := F) m).payload (sendCell c) 0 d = sendPay m c := by
  dsimp only [a2aRd]; rw [if_neg send_ne_bar, if_neg send_ne_recv, if_pos rfl]
omit [FloatOps F] in
theorem payload_recv (d : Unit) : (a2aRd (F := F) m).payload (recvCell c) 0 d = recvPay m c := by
  dsimp only [a2aRd]; rw [if_neg recv_ne_bar, if_pos rfl]

omit [FloatOps F] in
theorem rest_bar : bigSep ((a2aRd (F := F) m).duties (barCell c) 0 \ ∅) (fun d => (a2aRd (F := F) m).payload (barCell c) 0 d) = barPay c := by
  rw [Finset.sdiff_empty, duties_bar, bigSep_singleton, payload_bar]
omit [FloatOps F] in
theorem rest_send : bigSep ((a2aRd (F := F) m).duties (sendCell c) 0 \ ∅) (fun d => (a2aRd (F := F) m).payload (sendCell c) 0 d) = sendPay m c := by
  rw [Finset.sdiff_empty, duties_send, bigSep_singleton, payload_send]
omit [FloatOps F] in
theorem rest_recv : bigSep ((a2aRd (F := F) m).duties (recvCell c) 0 \ ∅) (fun d => (a2aRd (F := F) m).payload (recvCell c) 0 d) = recvPay m c := by
  rw [Finset.sdiff_empty, duties_recv, bigSep_singleton, payload_recv]

end Sched

/-! ## What each device owes at launch; the levels -/

/-- Device c owes peer c's receive cell the block's credit and peer c's barrier cell one unit (the signal comes first:
    it peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (send, the local copies' cells) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes peer c's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The ghost state and the launch's data -/

/-- A local copy's cell: the kernel's own DMA semaphore k (0, 1 the loads', 2, 3 the stores'). -/
abbrev lcell (c : Dev nD) (k : Fin 4) : GSem nD τ sig := ((c : Thread nD τ), .dma ⟨k.val, by have := k.isLt; show k.val < 6; omega⟩)

def locals (c : Dev nD) : sProp 𝕄 :=
  iprop(semVal (lcell c 0) 0 ∗ semVal (lcell c 1) 0 ∗ semVal (lcell c 2) 0 ∗ semVal (lcell c 3) 0)

/-- The cells' invariants device c's body opens, under the names K the launch allocated them at: its own three, peer c's
    barrier cell (its signal) and receive cell (its transfer). -/
def invs (K : Dev nD × Fin 3 → ℕ) (c : Dev nD) : sProp 𝕄 :=
  iprop(cellInv ER (a2aRd m) (K (c, 0)) (barCell c) ∗ cellInv ER (a2aRd m) (K (c, 1)) (sendCell c) ∗ cellInv ER (a2aRd m) (K (c, 2)) (recvCell c)
    ∗ cellInv ER (a2aRd m) (K (peer c, 0)) (barCell (peer c)) ∗ cellInv ER (a2aRd m) (K (peer c, 2)) (recvCell (peer c)))

instance invs_persistent (K : Dev nD × Fin 3 → ℕ) (c : Dev nD) : BI.Persistent (invs m K c) := by unfold invs; infer_instance

/-- The ghost state device c starts from: the invariants; its positions at round 0 of its three cells; the reached-marks of
    the cells it pays and of its own; the three duty tokens it pays with — peer c's barrier duty, peer c's receive duty,
    its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from besides its buffers. -/
def start (c : Dev nD) : sProp 𝕄 :=
  iprop((∃ K, ghost m K c) ∗ locals c ∗ cred (tallyAt (barCell c) () 1) ∗ cred (tallyAt (recvCell c) () N) ∗ levAts L lv)

/-- Before the point: that, the two arrays as launched, the scratch at anything. -/
def Φ₀ (c : Dev nD) : sProp 𝕄 :=
  iprop(start m c ∗ (xM.view.loc (c : Thread nD τ) ↦{fullShare} m ((c : Thread nD τ).loc main_arg0))
    ∗ (oM.view.loc (c : Thread nD τ) ↦{fullShare} m ((c : Thread nD τ).loc main_v1))
    ∗ ∃ f, vM.view.loc (c : Thread nD τ) ↦{fullShare} f)
/-- After the point: the argument as launched, the result at the exchange's values, the scratch at anything, the kernel's six
    own cells at zero (the barrier cell is the runtime's: nothing to hand back). -/
def Φ₁ (c : Dev nD) : sProp 𝕄 :=
  iprop((xM.view.loc (c : Thread nD τ) ↦{fullShare} m ((c : Thread nD τ).loc main_arg0))
    ∗ (oM.view.loc (c : Thread nD τ) ↦{fullShare} outFinal m c)
    ∗ (∃ f, vM.view.loc (c : Thread nD τ) ↦{fullShare} f)
    ∗ locals c ∗ semVal (sendCell c) 0 ∗ semVal (recvCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.A2A

end
-- ==== Proof.KernelIdealValue.lean ====
/-
The values the exchange's copies land, entry by entry.

A block of 8192 × 1024 entries that device c sends lands in the rows [8192·yc c, 8192·yc c + 8192) of peer c's
result, from the columns [1024·yc (peer c), …) of c's argument block: that is what the exchange puts in those rows of
peer c's result. The eight tiles of 1024 × 1024 entries that c copies for itself land in the rows
[8192·yc c + 1024·t, …) of its own result, from the rows [1024·t, …) and the columns [1024·yc c, …) of its own block.
-/
import proofs.«900626_g7700000000000627_dist_a2a_v7x_xyz2x2x2_y_m8192_n1024_f32_1_alg».proof.Proof.KernelIdealCells
import Idealize.ShloMosaic.Lib.Pipeline.Value

noncomputable section

namespace Cert.KernelIdeal.A2A

open Cert.KernelIdeal Cert.KernelIdeal.Gen

open Idealize.ShloMosaic
open Idealize.ShloMosaic.TcCoe

variable {F : FTy → Type} [FloatOps F]

variable (m : (ℓ : Loc nD τ sig) → Buf (Elt F) ℓ)

/-- A coordinate of a unit-stride block's entry in the enclosing array: the block's offset plus the entry's own coordinate. -/
theorem unit_emb_val {s : Shape} (off size : Fin s.rank → ℕ) (inb : ∀ a, off a + size a ≤ s.size a)
    (y : (Rect.unit off size inb).shape.Idx) (a : Fin s.rank) :
    ((Rect.unit off size inb).emb y a).val = off a + (y a).val := by
  show off a + 1 * (y a).val = _
  omega

/-- Writing through a block of a whole array, everywhere, puts the payload's entry y at the block's entry y. -/
theorem write_block_emb {sig : RefSig} {κ : Kind} {Val : EltTy → Type} (b : Ref sig κ) (r : Rect b.ty.shape)
    (f : ((View.whole b).slice r).ty.Contents Val) (w : r.shape.Idx → Val b.ty.elt) (y : r.shape.Idx) :
    ((View.whole b).slice r).write Val f w Finset.univ (r.emb y) = w y := by
  have h := View.write_emb_of_mem (v := (View.whole b).slice r) f w (Finset.mem_univ y)
  exact h

/-- Reading through a block of a whole array gives the array's entry under the block's entry. -/
theorem read_block {sig : RefSig} {κ : Kind} {Val : EltTy → Type} (b : Ref sig κ) (r : Rect b.ty.shape)
    (f : ((View.whole b).slice r).ty.Contents Val) (y : r.shape.Idx) :
    ((View.whole b).slice r).read Val f y = f (r.emb y) := rfl

theorem off1_0 (c : Dev nD) : k0_off1 c 0 = 8192 * yc c := by
  rw [k0_off1_eq]; simp only [yc, Matrix.cons_val_zero]
theorem off1_1 (c : Dev nD) : k0_off1 c 1 = 0 := by
  rw [k0_off1_eq]; simp only [Matrix.cons_val_one, Matrix.cons_val_zero, Matrix.head_cons]
theorem off2_0 (c : Dev nD) : k0_off2 c 0 = 0 := by
  rw [k0_off2_eq]; simp only [Matrix.cons_val_zero]
theorem off2_1 (c : Dev nD) : k0_off2 c 1 = 1024 - 1024 * yc c := by
  rw [k0_off2_eq]; simp only [yc, Matrix.cons_val_one, Matrix.cons_val_zero, Matrix.head_cons]

theorem landed_eq (c : Dev nD) (fn : Buf (Elt F) ((dstV c).view.loc (peer c : Thread nD τ))) :
    ∀ i ∈ (dstV c).view.set,
      ((dstV c).view.write (Elt F) fn ((srcV c).view.read (Elt F) (m ((c : Thread nD τ).loc main_arg0))) Finset.univ) i
        = outFinal m (peer c) i := by
  intro i hi
  obtain ⟨y, rfl⟩ := View.exists_emb_of_mem_set _ hi
  have hy0 : (y 0).val < 8192 := (y 0).isLt
  have hy1 : (y 1).val < 1024 := (y 1).isLt
  have hyc := yc_lt c
  have hycp := yc_peer c
  -- the landed entry's coordinates in the result
  have e0 : (((dstV c).view.emb y) 0).val = 8192 * yc c + (y 0).val := by
    have h := unit_emb_val (s := S16384x1024) (k0_off1 c) S8192x1024.size (k0_off1_inb c) y 0
    rw [off1_0] at h
    exact h
  have e1 : (((dstV c).view.emb y) 1).val = (y 1).val := by
    have h := unit_emb_val (s := S16384x1024) (k0_off1 c) S8192x1024.size (k0_off1_inb c) y 1
    rw [off1_1, Nat.zero_add] at h
    exact h
  -- the entry's coordinates in the sender's argument block
  have s0 : (((srcV c).view.emb y) 0).val = (y 0).val := by
    have h := unit_emb_val (s := S8192x2048) (k0_off2 c) S8192x1024.size (k0_off2_inb c) y 0
    rw [off2_0, Nat.zero_add] at h
    exact h
  have s1 : (((srcV c).view.emb y) 1).val = 1024 - 1024 * yc c + (y 1).val := by
    have h := unit_emb_val (s := S8192x2048) (k0_off2 c) S8192x1024.size (k0_off2_inb c) y 1
    rw [off2_1] at h
    exact h
  -- the row lies in the half of the peer's result that the peer does not fill itself
  have hd : srcDev (peer c) (((dstV c).view.emb y) 0).val = c := by
    unfold srcDev
    rw [if_neg (by rw [e0, hycp]; omega), peer_peer]
  refine (write_block_emb main_v1 _ fn _ y).trans ?_
  refine (read_block (Val := Elt F) main_arg0 (Rect.unit (s := S8192x2048) (k0_off2 c) S8192x1024.size (k0_off2_inb c))
    (m ((c : Thread nD τ).loc main_arg0)) y).trans ?_
  unfold outFinal
  rw [hd]
  refine congrArg _ ?_
  funext a
  match a with
  | ⟨0, _⟩ =>
    refine Fin.ext ?_
    show (((srcV c).view.emb y) 0).val = (((dstV c).view.emb y) 0).val % 8192
    rw [s0, e0]; omega
  | ⟨1, _⟩ =>
    refine Fin.ext ?_
    show (((srcV c).view.emb y) 1).val = 1024 * yc (peer c) + (((dstV c).view.emb y) 1).val
    rw [s1, e1, hycp]; omega

/-- Off a block, writing through the block of a whole array leaves the earlier contents. -/
theorem write_block_of_not_mem {sig : RefSig} {κ : Kind} {Val : EltTy → Type} (b : Ref sig κ) (r : Rect b.ty.shape)
    (f : ((View.whole b).slice r).ty.Contents Val) (w : r.shape.Idx → Val b.ty.elt) {i : b.ty.shape.Idx}
    (h : i ∉ r.set) : ((View.whole b).slice r).write Val f w Finset.univ i = f i :=
  View.write_of_not_mem f w Finset.univ (by rw [View.setOn_univ, View.set_slice_whole]; exact h)

/-- One of the device's own eight copies: tile t of its argument block (rows from r0 = 1024·t, columns from 1024·yc c)
    written over the rows [8192·yc c + r0, 8192·yc c + r0 + 1024) of its result. On those rows the result holds what the
    exchange is to leave there; elsewhere the earlier contents stay. -/
theorem tile_step (c : Dev nD) (t : Fin 8) (off : Fin 2 → ℕ) (inb : ∀ a, off a + S1024x1024.size a ≤ S8192x2048.size a)
    (r0 : ℕ) (hoff : off = ![r0, 1024 * ((c.val / 2) % 2)]) (hr0 : r0 = 1024 * t.val)
    (prev : Buf (Elt F) ((c : Thread nD τ).loc main_v1)) (i : S16384x1024.Idx) :
    View.write (Elt F) (oM.slice (Rect.unit (s := S16384x1024) (k0_off4 c (BitVec.ofNat 32 (1024 * t.val))) S1024x1024.size (k0_off4_inb c t)) (fun _ => rfl)).view
        prev
        (View.read (Elt F) (xM.slice (Rect.unit (s := S8192x2048) off S1024x1024.size inb) (fun _ => rfl)).view (m ((c : Thread nD τ).loc main_arg0)))
        Finset.univ i
      = if 8192 * yc c + r0 ≤ (i 0).val ∧ (i 0).val < 8192 * yc c + r0 + 1024 then outFinal m c i else prev i := by
  have hyc := yc_lt c
  have ht := t.isLt
  have hi1 : (i 1).val < 1024 := (i 1).isLt
  have o0 : k0_off4 c (BitVec.ofNat 32 (1024 * t.val)) 0 = 8192 * yc c + r0 := by
    rw [k0_off4_eq, hr0]; simp only [yc, Matrix.cons_val_zero]
  have o1 : k0_off4 c (BitVec.ofNat 32 (1024 * t.val)) 1 = 0 := by
    rw [k0_off4_eq]; simp only [Matrix.cons_val_one, Matrix.cons_val_zero, Matrix.head_cons]
  have x0 : off 0 = r0 := by rw [hoff]; simp only [Matrix.cons_val_zero]
  have x1 : off 1 = 1024 * yc c := by
    rw [hoff]; simp only [yc, Matrix.cons_val_one, Matrix.cons_val_zero, Matrix.head_cons]
  split_ifs with h
  · -- the entry lies in the tile: it is the tile's entry y
    have hmem : i ∈ (Rect.unit (s := S16384x1024) (k0_off4 c (BitVec.ofNat 32 (1024 * t.val))) S1024x1024.size (k0_off4_inb c t)).set := by
      refine Rect.mem_set_unit.mpr fun a => ?_
      match a with
      | ⟨0, _⟩ =>
        show k0_off4 c (BitVec.ofNat 32 (1024 * t.val)) 0 ≤ (i 0).val ∧ (i 0).val < k0_off4 c (BitVec.ofNat 32 (1024 * t.val)) 0 + 1024
        rw [o0]; exact h
      | ⟨1, _⟩ =>
        show k0_off4 c (BitVec.ofNat 32 (1024 * t.val)) 1 ≤ (i 1).val ∧ (i 1).val < k0_off4 c (BitVec.ofNat 32 (1024 * t.val)) 1 + 1024
        rw [o1]; omega
    obtain ⟨y, hy⟩ : ∃ y, (Rect.unit (s := S16384x1024) (k0_off4 c (BitVec.ofNat 32 (1024 * t.val))) S1024x1024.size (k0_off4_inb c t)).emb y = i :=
      LoadRect.exists_idx_of_mem _ hmem
    subst hy
    have hy0 : (y 0).val < 1024 := (y 0).isLt
    have hy1 : (y 1).val < 1024 := (y 1).isLt
    have e0 := unit_emb_val (s := S16384x1024) (k0_off4 c (BitVec.ofNat 32 (1024 * t.val))) S1024x1024.size (k0_off4_inb c t) y 0
    have e1 := unit_emb_val (s := S16384x1024) (k0_off4 c (BitVec.ofNat 32 (1024 * t.val))) S1024x1024.size (k0_off4_inb c t) y 1
    rw [o0] at e0
    rw [o1, Nat.zero_add] at e1
    have s0 := unit_emb_val (s := S8192x2048) off S1024x1024.size inb y 0
    have s1 := unit_emb_val (s := S8192x2048) off S1024x1024.size inb y 1
    rw [x0] at s0
    rw [x1] at s1
    have hd : srcDev c (((Rect.unit (s := S16384x1024) (k0_off4 c (BitVec.ofNat 32 (1024 * t.val))) S1024x1024.size (k0_off4_inb c t)).emb y) 0).val = c := by
      unfold srcDev
      rw [if_pos (by rw [e0]; omega)]
    refine (write_block_emb (Val := Elt F) main_v1
      (Rect.unit (s := S16384x1024) (k0_off4 c (BitVec.ofNat 32 (1024 * t.val))) S1024x1024.size (k0_off4_inb c t)) prev
      (View.read (Elt F) (xM.slice (Rect.unit (s := S8192x2048) off S1024x1024.size inb) (fun _ => rfl)).view
        (m ((c : Thread nD τ).loc main_arg0))) y).trans ?_
    refine (read_block (Val := Elt F) main_arg0 (Rect.unit (s := S8192x2048) off S1024x1024.size inb)
      (m ((c : Thread nD τ).loc main_arg0)) y).trans ?_
    unfold outFinal
    rw [hd]
    refine congrArg _ ?_
    funext a
    match a with
    | ⟨0, _⟩ =>
      refine Fin.ext ?_
      show (((Rect.unit (s := S8192x2048) off S1024x1024.size inb).emb y) 0).val
        = (((Rect.unit (s := S16384x1024) (k0_off4 c (BitVec.ofNat 32 (1024 * t.val))) S1024x1024.size (k0_off4_inb c t)).emb y) 0).val % 8192
      rw [s0, e0]; omega
    | ⟨1, _⟩ =>
      refine Fin.ext ?_
      show (((Rect.unit (s := S8192x2048) off S1024x1024.size inb).emb y) 1).val
        = 1024 * yc c + (((Rect.unit (s := S16384x1024) (k0_off4 c (BitVec.ofNat 32 (1024 * t.val))) S1024x1024.size (k0_off4_inb c t)).emb y) 1).val
      rw [s1, e1]
  · -- the entry lies off the tile
    refine write_block_of_not_mem (Val := Elt F) main_v1
      (Rect.unit (s := S16384x1024) (k0_off4 c (BitVec.ofNat 32 (1024 * t.val))) S1024x1024.size (k0_off4_inb c t)) prev
      (View.read (Elt F) (xM.slice (Rect.unit (s := S8192x2048) off S1024x1024.size inb) (fun _ => rfl)).view
        (m ((c : Thread nD τ).loc main_arg0))) ?_
    intro hmem
    have h0' : k0_off4 c (BitVec.ofNat 32 (1024 * t.val)) 0 ≤ (i 0).val
        ∧ (i 0).val < k0_off4 c (BitVec.ofNat 32 (1024 * t.val)) 0 + 1024 := Rect.mem_set_unit.mp hmem 0
    rw [o0] at h0'
    exact h h0'

theorem own_rows_eq (c : Dev nD) (P0 P1 P2 P3 P4 P5 P6 P7 : S1024x1024.Idx → Elt F .f32)
    (h0 : P0 = View.read (Elt F) (xM.slice (Rect.unit (s := S8192x2048) (k0_off3 c) S1024x1024.size (k0_off3_inb c)) (fun _ => rfl)).view (m ((c : Thread nD τ).loc main_arg0)))
    (h1 : P1 = View.read (Elt F) (xM.slice (Rect.unit (s := S8192x2048) (k0_off5 c) S1024x1024.size (k0_off5_inb c)) (fun _ => rfl)).view (m ((c : Thread nD τ).loc main_arg0)))
    (h2 : P2 = View.read (Elt F) (xM.slice (Rect.unit (s := S8192x2048) (k0_off6 c) S1024x1024.size (k0_off6_inb c)) (fun _ => rfl)).view (m ((c : Thread nD τ).loc main_arg0)))
    (h3 : P3 = View.read (Elt F) (xM.slice (Rect.unit (s := S8192x2048) (k0_off7 c) S1024x1024.size (k0_off7_inb c)) (fun _ => rfl)).view (m ((c : Thread nD τ).loc main_arg0)))
    (h4 : P4 = View.read (Elt F) (xM.slice (Rect.unit (s := S8192x2048) (k0_off8 c) S1024x1024.size (k0_off8_inb c)) (fun _ => rfl)).view (m ((c : Thread nD τ).loc main_arg0)))
    (h5 : P5 = View.read (Elt F) (xM.slice (Rect.unit (s := S8192x2048) (k0_off9 c) S1024x1024.size (k0_off9_inb c)) (fun _ => rfl)).view (m ((c : Thread nD τ).loc main_arg0)))
    (h6 : P6 = View.read (Elt F) (xM.slice (Rect.unit (s := S8192x2048) (k0_off10 c) S1024x1024.size (k0_off10_inb c)) (fun _ => rfl)).view (m ((c : Thread nD τ).loc main_arg0)))
    (h7 : P7 = View.read (Elt F) (xM.slice (Rect.unit (s := S8192x2048) (k0_off11 c) S1024x1024.size (k0_off11_inb c)) (fun _ => rfl)).view (m ((c : Thread nD τ).loc main_arg0))) :
    ∀ i ∈ Finset.univ \ (dstV (peer c)).view.set,
      (View.write (Elt F) (oM.slice (Rect.unit (s := S16384x1024) (k0_off4 c 7168#32) S1024x1024.size (k0_off4_inb c 7)) (fun _ => rfl)).view
        (View.write (Elt F) (oM.slice (Rect.unit (s := S16384x1024) (k0_off4 c 6144#32) S1024x1024.size (k0_off4_inb c 6)) (fun _ => rfl)).view
        (View.write (Elt F) (oM.slice (Rect.unit (s := S16384x1024) (k0_off4 c 5120#32) S1024x1024.size (k0_off4_inb c 5)) (fun _ => rfl)).view
        (View.write (Elt F) (oM.slice (Rect.unit (s := S16384x1024) (k0_off4 c 4096#32) S1024x1024.size (k0_off4_inb c 4)) (fun _ => rfl)).view
        (View.write (Elt F) (oM.slice (Rect.unit (s := S16384x1024) (k0_off4 c 3072#32) S1024x1024.size (k0_off4_inb c 3)) (fun _ => rfl)).view
        (View.write (Elt F) (oM.slice (Rect.unit (s := S16384x1024) (k0_off4 c 2048#32) S1024x1024.size (k0_off4_inb c 2)) (fun _ => rfl)).view
        (View.write (Elt F) (oM.slice (Rect.unit (s := S16384x1024) (k0_off4 c 1024#32) S1024x1024.size (k0_off4_inb c 1)) (fun _ => rfl)).view
        (View.write (Elt F) (oM.slice (Rect.unit (s := S16384x1024) (k0_off4 c 0#32) S1024x1024.size (k0_off4_inb c 0)) (fun _ => rfl)).view
        (m ((c : Thread nD τ).loc main_v1))
        P0 Finset.univ)
        P1 Finset.univ)
        P2 Finset.univ)
        P3 Finset.univ)
        P4 Finset.univ)
        P5 Finset.univ)
        P6 Finset.univ)
        P7 Finset.univ) i = outFinal m c i := by
  intro i hi
  subst h0 h1 h2 h3 h4 h5 h6 h7
  have hyc := yc_lt c
  have hi0 : (i 0).val < 16384 := (i 0).isLt
  have hi1 : (i 1).val < 1024 := (i 1).isLt
  -- off the rows the peer fills, the row lies in the half the device fills itself
  have hr : 8192 * yc c ≤ (i 0).val ∧ (i 0).val < 8192 * yc c + 8192 := by
    by_contra hcon
    refine (Finset.mem_sdiff.mp hi).2 ?_
    rw [View.set_slice_whole]
    refine Rect.mem_set_unit.mpr fun a => ?_
    match a with
    | ⟨0, _⟩ =>
      show k0_off1 (peer c) 0 ≤ (i 0).val ∧ (i 0).val < k0_off1 (peer c) 0 + 8192
      rw [off1_0, yc_peer]; omega
    | ⟨1, _⟩ =>
      show k0_off1 (peer c) 1 ≤ (i 1).val ∧ (i 1).val < k0_off1 (peer c) 1 + 1024
      rw [off1_1]; omega
  -- peel the eight copies from the last one written: the row's tile gives the value, the others leave it
  refine (tile_step m c 7 (k0_off11 c) (k0_off11_inb c) 7168 (k0_off11_eq c) rfl _ i).trans ?_
  split_ifs with a7
  · rfl
  refine (tile_step m c 6 (k0_off10 c) (k0_off10_inb c) 6144 (k0_off10_eq c) rfl _ i).trans ?_
  split_ifs with a6
  · rfl
  refine (tile_step m c 5 (k0_off9 c) (k0_off9_inb c) 5120 (k0_off9_eq c) rfl _ i).trans ?_
  split_ifs with a5
  · rfl
  refine (tile_step m c 4 (k0_off8 c) (k0_off8_inb c) 4096 (k0_off8_eq c) rfl _ i).trans ?_
  split_ifs with a4
  · rfl
  refine (tile_step m c 3 (k0_off7 c) (k0_off7_inb c) 3072 (k0_off7_eq c) rfl _ i).trans ?_
  split_ifs with a3
  · rfl
  refine (tile_step m c 2 (k0_off6 c) (k0_off6_inb c) 2048 (k0_off6_eq c) rfl _ i).trans ?_
  split_ifs with a2
  · rfl
  refine (tile_step m c 1 (k0_off5 c) (k0_off5_inb c) 1024 (k0_off5_eq c) rfl _ i).trans ?_
  split_ifs with a1
  · rfl
  refine (tile_step m c 0 (k0_off3 c) (k0_off3_inb c) 0 (k0_off3_eq c) rfl _ i).trans ?_
  split_ifs with a0
  · rfl
  exfalso; omega

/-- info: 'Cert.KernelIdeal.A2A.landed_eq' depends on axioms: [propext, Classical.choice, Quot.sound] -/
#guard_msgs in #print axioms landed_eq

/-- info: 'Cert.KernelIdeal.A2A.own_rows_eq' depends on axioms: [propext, Classical.choice, Quot.sound] -/
#guard_msgs in #print axioms own_rows_eq

end Cert.KernelIdeal.A2A

end
-- ==== Proof.KernelIdealBody.lean ====
/-
One device's body of the exchange, stepped from the device's own invariant.

Device c signals peer c's barrier cell, handing over the rows of its own result that peer c's block fills; waits
for peer c's signal and so receives the matching rows of peer c's result; sends its block's other columns there;
copies its own columns tile by tile through the two halves of the scratch into its own rows; and waits for the
tiles, for its send (its source columns come back) and for peer c's block (its rows come back, filled).
-/
import proofs.«900626_g7700000000000627_dist_a2a_v7x_xyz2x2x2_y_m8192_n1024_f32_1_alg».proof.Proof.KernelIdealProto
import proofs.«900626_g7700000000000627_dist_a2a_v7x_xyz2x2x2_y_m8192_n1024_f32_1_alg».proof.Proof.KernelIdealValue
import Idealize.ShloMosaic.Lib.Pipeline.Value

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

def bodyPre (c : Dev nD) : sProp 𝕄 :=
  iprop(ghost m K c ∗ locals c ∗ cred (tallyAt (barCell c) () 1) ∗ cred (tallyAt (recvCell c) () N) ∗ levAts L lv
    ∗ (xM.view.loc (c : Thread nD τ) ↦{fullShare} m ((c : Thread nD τ).loc main_arg0))
    ∗ (oM.view.loc (c : Thread nD τ) ↦{fullShare} m ((c : Thread nD τ).loc main_v1))
    ∗ (∃ f, vM.view.loc (c : Thread nD τ) ↦{fullShare} f)
    ∗ (dats m 0 c).owesAt () t₀.castSucc)

def bodyPost (c : Dev nD) : sProp 𝕄 := iprop(Φ₁ m c ∗ (dats m 0 c).owesAt () t₀.succ)

/-- A tile of c's own rows lies off the rows peer c's block fills. -/
theorem tile_disjoint (c : Dev nD) (r : Fin 8) :
    Disjoint (oM.slice (Rect.unit (s := S16384x1024) (k0_off4 c (BitVec.ofNat 32 (1024 * r.val))) S1024x1024.size (k0_off4_inb c r)) (fun _ => rfl)).view.set
      (dstV (peer c)).view.set := by
  rw [View.set_slice_whole, View.set_slice_whole]
  refine Rect.unit_disjoint (0 : Fin 2) ?_
  rw [k0_off4_eq c r, k0_off1_eq (peer c)]
  have hr := r.isLt
  have hy := yc_cases c
  have hp := yc_peer c
  simp only [yc] at hy hp
  dsimp only
  simp only [Matrix.cons_val_zero]
  omega

omit [FloatOps F] in
/-- What c's send cell hands back: the columns it sent. -/
theorem pay_send (c : Dev nD) :
    bigSep ((a2aRd (F := F) m).duties (sendCell c) 0) (fun d => (a2aRd (F := F) m).payload (sendCell c) 0 d)
      = (xM.view.loc (c : Thread nD τ) ↦[(srcV c).view.set]{fullShare.left} m ((c : Thread nD τ).loc main_arg0) : sProp 𝕄) := by
  rw [duties_send, bigSep_singleton, payload_send]; rfl
omit [FloatOps F] in
/-- What c's receive cell hands over: the rows peer c's block filled, at the exchange's values. -/
theorem pay_recv (c : Dev nD) :
    bigSep ((a2aRd (F := F) m).duties (recvCell c) 0) (fun d => (a2aRd (F := F) m).payload (recvCell c) 0 d)
      = (oM.view.loc (c : Thread nD τ) ↦[(dstV (peer c)).view.set]{fullShare} outFinal m c : sProp 𝕄) := by
  rw [duties_recv, bigSep_singleton, payload_recv]; rfl

omit [FloatOps F] in
theorem rest_send' (c : Dev nD) :
    bigSep ((a2aRd (F := F) m).duties (sendCell c) 0 \ ∅) (fun d => (a2aRd (F := F) m).payload (sendCell c) 0 d)
      = (xM.view.loc (c : Thread nD τ) ↦[(srcV c).view.set]{fullShare.left} m ((c : Thread nD τ).loc main_arg0) : sProp 𝕄) :=
  (rest_send m c).trans rfl
omit [FloatOps F] in
theorem rest_recv' (c : Dev nD) :
    bigSep ((a2aRd (F := F) m).duties (recvCell c) 0 \ ∅) (fun d => (a2aRd (F := F) m).payload (recvCell c) 0 d)
      = (oM.view.loc (c : Thread nD τ) ↦[(dstV (peer c)).view.set]{fullShare} outFinal m c : sProp 𝕄) :=
  (rest_recv m c).trans rfl

/-- A credit token kept aside until the wait that spends it. -/
def aside (P : sProp 𝕄) : sProp 𝕄 := P
omit [FloatOps F] in
theorem aside_intro (P : sProp 𝕄) : P ⊢ aside P := BI.Entails.refl _
omit [FloatOps F] in
theorem aside_elim (P : sProp 𝕄) : aside P ⊢ P := BI.Entails.refl _

/-- The send rule at the pair's cells, the transfer addressed to n = peer c (substituted, not rewritten). -/
theorem wp_send_a2a (c n : Dev nD) (hn : n = peer c)
    {hsc : (dstV c : Memref sig (Dev.tc n : Thread nD τ).2.kind .hbm S8192x1024 .f32).view.ref.isScScratch = false}
    {hsrc : (srcV c).view.WordExact} {hdst : (dstV c).view.WordExact}
    {hsem : DmaTarget.Typed .hbm (.dma recvS.sem) (.remote (Dev.tc n : Thread nD τ) (dstV c) (.dma sendS.sem) hsc)}
    {α : Type} {Q : α → sProp 𝕄} {k : PUnit → Prog (TpuEff nD τ sig (Elt F) Λ₀ .tc) α}
    (fn : Buf (Elt F) ((dstV c).view.loc (peer c : Thread nD τ))) (W : Waits sig Unit) :
    iprop(cellInv ER (a2aRd m) (K (c, 1)) (sendCell c) ∗ cellInv ER (a2aRd m) (K (peer c, 2)) (recvCell (peer c))
        ∗ colsPts m c ∗ rowsPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcV c) (.remote (Dev.tc n : Thread nD τ) (dstV c) (.dma sendS.sem) hsc) (.dma recvS.sem) hsrc hdst hsem) k) Q) := by
  subst hn
  unfold colsPts rowsPts
  exact Rounds.wp_send_pointsTo 𝒱₀ ER (a2aRd m) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N (show (dstV c).view.amount (SemLoc.dma recvS.sem) = N from N_dst c) (amount_send m c ()) (amount_recv m (peer c) ()) 0 (by rw [zero_add]) (W := W)
    (by rw [payload_send]; exact BI.Entails.refl _)
    (by rw [payload_recv]; unfold recvPay rowsPts; rw [peer_peer]; exact Entails.of_eq (pointsTo_congr (landed_eq m c fn)))

set_option maxRecDepth 20000 in
set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) xM (Memref.isWhole_whole _) oM (Memref.isWhole_whole _) vM (Memref.isWhole_whole _)
            cc0_scratch1 cc0_scratch2 cc0_scratch3 cc0_scratch4) Kt := by
  unfold bodyPre ghost invs locals
  iintro ⟨⟨⟨⟨#HIbar, #HIsnd, #HIrcv, #HIbarP, #HIrcvP⟩, HatB, HatS, HatV, #HrBP, #HrVP, #HrS, #HrV, HtBP, HtVP, HtS⟩,
    ⟨Hl0, Hl1, Hl2, Hl3⟩, HcB, HcV, #Hlev, Hx, Ho, ⟨%fv, Hv⟩, Howes⟩, Hk⟩
  unfold Dat.owesAt Pipeline.owesWithin
  icases Howes with ⟨%W, %hW, HO⟩
  rw [show (dats m 0 c).owed t₀.castSucc = O₀ c from rfl]
  ihave HcV := (aside_intro _) $$ HcV
  -- the argument block by shares: the left half for the send, the right half for the local copies
  ihave Hxs := (pointsTo_share (PosShare.mem_left_op_right fullShare)).1 $$ Hx
  icases Hxs with ⟨HxL, HxR⟩
  ihave HxLs := (pointsTo_split_subset (Finset.subset_univ ((srcV c).view.set))).1 $$ HxL
  icases HxLs with ⟨HxS, HxL⟩
  -- the result by rows: the rows peer c's block fills, and the rest
  ihave Hos := (pointsTo_split_subset (Finset.subset_univ ((dstV (peer c)).view.set))).1 $$ Ho
  icases Hos with ⟨HoP, Ho⟩
  rw [cc0_body_eq_skeleton]; unfold cc0_body_skel
  sl_exec
  -- the signal to peer c's barrier cell: c's rows for peer c's block, and that c is at round 0 of its receive cell
  rw [show (⟨k0_dev1 (c : Thread nD τ).1, k0_dev1_lt _⟩ : Dev nD) = peer c from dev1_eq c]
  unfold O₀
  iapply (Rounds.wp_signal 𝒱₀ ER (a2aRd m) (c : Thread nD τ) none (dst := (peer c : Thread nD τ)) (κ := K (peer c, 0))
      (d := ()) (by rw [duties_bar]; exact Finset.mem_singleton_self _) ((amount_bar m (peer c) ()).trans (by decide)) ()
      (tallyAt (recvCell (peer c)) () N) rfl) $$ [HO HtBP HoP]
  · isplitr; · iexact HIbarP
    isplitl [HO]; · iexact HO
    isplitl [HtBP]; · iexact HtBP
    isplitl [HoP]
    · rw [payload_bar]; unfold barPay; rw [peer_peer]
      isplitl [HoP]
      · iexists _; unfold rowsPts; iexact HoP
      iexact HrV
    · iexact HrBP
  iintro HO
  sl_exec
  -- the wait on its own barrier cell, owing peer c's receive credit: peer c's rows come with it
  iapply (Rounds.wp_wait_rest_token 𝒱₀ ER (a2aRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HoN⟩, #HrVP'⟩
  sl_exec
  -- the transfer to peer c
  iapply (wp_send_a2a m K c _ (dev2_eq c) fn (insert (SemLoc.reg barS, ()) W)) $$ [HxS HoN HO HtS HtVP]
  · isplitr; · iexact HIsnd
    isplitr; · iexact HIrcvP
    isplitl [HxS]; · unfold colsPts; iexact HxS
    isplitl [HoN]; · iexact HoN
    isplitl [HO]; · iexact HO
    isplitl [HtS]; · iexact HtS
    isplitr; · iexact HrS
    isplitl [HtVP]; · iexact HtVP
    iexact HrVP
  iintro ⟨HcS, HO⟩
  ihave HcS := (aside_intro _) $$ HcS
  -- the local copies, tile by tile: each tile of c's rows lies off the rows given to peer c
  have hd0 : Disjoint (oM.slice (Rect.unit (s := S16384x1024) (k0_off4 c 0#32) S1024x1024.size (k0_off4_inb c 0)) (fun _ => rfl)).view.set (dstV (peer c)).view.set := tile_disjoint c 0
  have hd1 : Disjoint (oM.slice (Rect.unit (s := S16384x1024) (k0_off4 c 1024#32) S1024x1024.size (k0_off4_inb c 1)) (fun _ => rfl)).view.set (dstV (peer c)).view.set := tile_disjoint c 1
  have hd2 : Disjoint (oM.slice (Rect.unit (s := S16384x1024) (k0_off4 c 2048#32) S1024x1024.size (k0_off4_inb c 2)) (fun _ => rfl)).view.set (dstV (peer c)).view.set := tile_disjoint c 2
  have hd3 : Disjoint (oM.slice (Rect.unit (s := S16384x1024) (k0_off4 c 3072#32) S1024x1024.size (k0_off4_inb c 3)) (fun _ => rfl)).view.set (dstV (peer c)).view.set := tile_disjoint c 3
  have hd4 : Disjoint (oM.slice (Rect.unit (s := S16384x1024) (k0_off4 c 4096#32) S1024x1024.size (k0_off4_inb c 4)) (fun _ => rfl)).view.set (dstV (peer c)).view.set := tile_disjoint c 4
  have hd5 : Disjoint (oM.slice (Rect.unit (s := S16384x1024) (k0_off4 c 5120#32) S1024x1024.size (k0_off4_inb c 5)) (fun _ => rfl)).view.set (dstV (peer c)).view.set := tile_disjoint c 5
  have hd6 : Disjoint (oM.slice (Rect.unit (s := S16384x1024) (k0_off4 c 6144#32) S1024x1024.size (k0_off4_inb c 6)) (fun _ => rfl)).view.set (dstV (peer c)).view.set := tile_disjoint c 6
  have hd7 : Disjoint (oM.slice (Rect.unit (s := S16384x1024) (k0_off4 c 7168#32) S1024x1024.size (k0_off4_inb c 7)) (fun _ => rfl)).view.set (dstV (peer c)).view.set := tile_disjoint c 7
  sl_exec
  -- the wait on its send cell: the columns it sent come back
  ihave HcS := (aside_elim _) $$ HcS
  iapply (Rounds.wp_wait_rest_token 𝒱₀ ER (a2aRd m) (c : Thread nD τ) none (κ := K (c, 1))
      (wpE_waitDma2_eq 𝒱₀ (c : Thread nD τ) none Set.univ) (Set.mem_univ _) () (O := 0) (R := 0) (m := 0) (T := ∅)
      (by rw [Nat.zero_add, expect_send]; exact N_src c)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HxS := (Entails.of_eq (rest_send' m c)) $$ Hpay
  sl_exec
  -- the wait on its receive cell: the rows peer c's block filled come back
  ihave HcV := (aside_elim _) $$ HcV
  iapply (Rounds.wp_wait_rest_token 𝒱₀ ER (a2aRd m) (c : Thread nD τ) none (κ := K (c, 2))
      (wpE_waitDma2_eq 𝒱₀ (c : Thread nD τ) none Set.univ) (Set.mem_univ _) () (O := 0) (R := 0) (m := 0) (T := ∅)
      (by rw [Nat.zero_add, expect_recv]; exact N_dst c)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HoP := (Entails.of_eq (rest_recv' m c)) $$ Hpay
  sl_exec
  -- c's own two shared cells close: their counters at zero are the core's again
  imod (Rounds.cell_close ER (a2aRd m) (Set.mem_univ (K (c, 1))) (fun h => h) (R := 0 + 1) (duties_later m (sendCell c))) $$ [HatS] with HzS
  · isplitr; · iexact HIsnd
    iexact HatS
  imod (Rounds.cell_close ER (a2aRd m) (Set.mem_univ (K (c, 2))) (fun h => h) (R := 0 + 1) (duties_later m (recvCell c))) $$ [HatV] with HzV
  · isplitr; · iexact HIrcv
    iexact HatV
  -- the argument block whole again
  ihave HxL := (pointsTo_split_subset (ℓ := xM.view.loc (c : Thread nD τ)) (q := fullShare.left) (f := m ((c : Thread nD τ).loc main_arg0)) (Finset.subset_univ ((srcV c).view.set))).2 $$ [HxS HxL]
  · isplitl [HxS] <;> iassumption
  ihave Hx := (pointsTo_share (ℓ := xM.view.loc (c : Thread nD τ)) (I := Finset.univ) (f := m ((c : Thread nD τ).loc main_arg0)) (PosShare.mem_left_op_right fullShare)).2 $$ [HxL HxR]
  · isplitl [HxL] <;> iassumption
  -- the result whole: each tile of c's own rows holds what the store read off the scratch half the load before it filled
  have hval : ∀ i ∈ Finset.univ \ (dstV (peer c)).view.set, sound_body.sl.Ho_w15 m c fv i = outFinal m c i := by
    have h := own_rows_eq m c (sound_body.sl.dma0_1 m c fv) (sound_body.sl.dma0_3 m c fv) (sound_body.sl.dma0_5 m c fv) (sound_body.sl.dma0_7 m c fv) (sound_body.sl.dma0_9 m c fv) (sound_body.sl.dma0_11 m c fv) (sound_body.sl.dma0_13 m c fv) (sound_body.sl.dma0_15 m c fv)
      (by unfold sound_body.sl.dma0_1 sound_body.sl.dma0; rw [View.read_write_univ])
      (by unfold sound_body.sl.dma0_3 sound_body.sl.dma0_2; rw [View.read_write_univ])
      (by unfold sound_body.sl.dma0_5 sound_body.sl.dma0_4; rw [View.read_write_univ])
      (by unfold sound_body.sl.dma0_7 sound_body.sl.dma0_6; rw [View.read_write_univ])
      (by unfold sound_body.sl.dma0_9 sound_body.sl.dma0_8; rw [View.read_write_univ])
      (by unfold sound_body.sl.dma0_11 sound_body.sl.dma0_10; rw [View.read_write_univ])
      (by unfold sound_body.sl.dma0_13 sound_body.sl.dma0_12; rw [View.read_write_univ])
      (by unfold sound_body.sl.dma0_15 sound_body.sl.dma0_14; rw [View.read_write_univ])
    unfold sound_body.sl.Ho_w15 sound_body.sl.Ho_w13 sound_body.sl.Ho_w11 sound_body.sl.Ho_w9 sound_body.sl.Ho_w7 sound_body.sl.Ho_w5 sound_body.sl.Ho_w3 sound_body.sl.Ho_w1
    exact h
  ihave Ho := (Entails.of_eq (pointsTo_congr (ℓ := oM.view.loc (c : Thread nD τ)) (q := fullShare) hval)) $$ Ho
  ihave Ho := (pointsTo_split_subset (ℓ := oM.view.loc (c : Thread nD τ)) (q := fullShare) (f := outFinal m c) (Finset.subset_univ ((dstV (peer c)).view.set))).2 $$ [HoP Ho]
  · isplitl [HoP] <;> iassumption
  rw [wp_ret]; imodintro
  iapply Hk
  unfold bodyPost Φ₁ locals Dat.owesAt Pipeline.owesWithin
  rw [show (dats m 0 c).owed t₀.succ = 0 from rfl]
  isplitr [HO]
  · isplitl [Hx]; · iexact Hx
    isplitl [Ho]; · iexact Ho
    isplitl [Hv]; · iexists _; iexact Hv
    isplitl [Hl0 Hl1 Hl2 Hl3]
    · isplitl [Hl0]; · iexact Hl0
      isplitl [Hl1]; · iexact Hl1
      isplitl [Hl2]; · iexact Hl2
      iexact Hl3
    isplitl [HzS]; · iexact HzS
    iexact HzV
  · iexists _
    isplitr
    rotate_left
    · iexact HO
    · ipureintro; exact fun _ _ => Or.inl trivial

/-- info: 'Cert.KernelIdeal.A2A.sound_body' depends on axioms: [propext, Classical.choice, Quot.sound] -/
#guard_msgs in #print axioms sound_body

/-- The library's body obligation on device c: the invariant before the point, opened at some names of the cells. -/
theorem body_obligation (c : Dev nD) : BodyObligation (dats (F := F) m 0 c) (defs₀ (F := F)) 𝒱₀ () Set.univ := fun t => by
  rw [fin_N t]
  simp only [Finset.univ_eq_empty, BI.bigSep_empty]
  show iprop(Φ₀ m c ∗ (dats m 0 c).owesAt () t₀.castSucc ∗ emp) ⊢ wp frame (wpE (defs₀ (F := F)) 𝒱₀ c none) Set.univ
    (cc0_body (F := F) xM (Memref.isWhole_whole _) oM (Memref.isWhole_whole _) vM (Memref.isWhole_whole _)
      cc0_scratch1 cc0_scratch2 cc0_scratch3 cc0_scratch4) (fun _ => iprop(Φ₁ m c ∗ (dats m 0 c).owesAt () t₀.succ ∗ emp))
  unfold Φ₀ start
  iintro ⟨⟨⟨⟨%K, Hg⟩, Hloc, HcB, HcV, Hlev⟩, Hx, Ho, Hv⟩, Howes, -⟩
  iapply (sound_body m K c fun _ => iprop(Φ₁ m c ∗ (dats m 0 c).owesAt () t₀.succ ∗ emp))
  unfold bodyPre bodyPost
  isplitr []
  · isplitl [Hg]; · iexact Hg
    isplitl [Hloc]; · iexact Hloc
    isplitl [HcB]; · iexact HcB
    isplitl [HcV]; · iexact HcV
    isplitl [Hlev]; · iexact Hlev
    isplitl [Hx]; · iexact Hx
    isplitl [Ho]; · iexact Ho
    isplitl [Hv]; · iexact Hv
    iexact Howes
  · iintro ⟨H1, H2⟩
    isplitl [H1]; · iexact H1
    isplitl [H2]; · iexact H2
    iempintro

end Body

end Cert.KernelIdeal.A2A

end
-- ==== Proof.KernelIdealLaunch.lean ====
/-
The launch of the exchange: from "every device's body is proved" to the run of the whole program.

The launch element is split between the pipeline library's copy of the rounds algebra (no staging cell: the kernel
has no window) and the exchange's own copy, which funds three cells per device: barrier, send, receive. Each cell has
one duty at round 0. The duty tokens are dealt along the pairing c ↦ peer c: the token of c's barrier cell and the
token of c's receive cell go to peer c, who pays them; the token of c's send cell stays with c. The cells' invariants
are allocated for all devices under one update, because the barrier semaphore is not scoped to the launch and its
cell is shared by the pair. The four semaphores of a device's local copies travel as plain counters at zero.

What a device owes at launch is the block's credit to its peer's receive cell and one unit to its peer's barrier
cell; so the launch deals each device exactly that credit on its own receive and barrier cells.

The two arrays are not staged: they arrive as the unscoped rest, travel through the point, and are read against the
final state, which gives the result at the exchange's values and the argument unchanged.
-/
import proofs.«900626_g7700000000000627_dist_a2a_v7x_xyz2x2x2_y_m8192_n1024_f32_1_alg».proof.Proof.KernelIdealProto
import proofs.«900626_g7700000000000627_dist_a2a_v7x_xyz2x2x2_y_m8192_n1024_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the launch element -/

theorem ownSemFacts : Pipeline.OwnSemFacts cfg0.spec osem := by decide

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- A cell's one duty token as minted: round 0, the duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def pairToks : Finset (GSem nD τ sig × ℕ × Unit) := Finset.univ.map ⟨tokOf, tokOf_injective⟩

/-- The launch element: the pipeline library's copy (no staging cell), the exchange's cells and tokens, the counters' unit. -/
def u₀ : UU :=
  (initOf (Pipeline.cells cfgs cellOf_inj) (Pipeline.launchToks cfgs cellOf_inj), (initOf pairCells pairToks, 1))

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (a2aRd m) (kcell (c, k)) 0)
    ∗ (bigSep Finset.univ fun k : Fin 3 => iprop(atPos ER (kcell (c, k)) 0 ∅ 0 ∗ reached ER (kcell (c, k)) 0)) ∗ toks c)

/-- What the global step makes of it: the ghost state and the local copies' counters. -/
def G' (c : Dev nD) : sProp 𝕄 := iprop((∃ K, ghost m K c) ∗ locals c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (a2aRd m) pairCells pairToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero: the kernel's own six, and the barrier semaphore -/

/-- The kernel's own six: the four of the local copies, send, receive. -/
theorem ownSems0_eq (c : Dev nD) : (Pipeline.ownSems0 (Ix := Unit) (Name := ℕ) (U := UU) (Lvl := ℕ) (Val := Elt F) (τ := τ) osem c : sProp 𝕄)
    = iprop(semVal (lcell c 0) 0 ∗ semVal (lcell c 1) 0 ∗ semVal (lcell c 2) 0 ∗ semVal (lcell c 3) 0
        ∗ semVal (sendCell c) 0 ∗ semVal (recvCell c) 0) := by
  rw [Pipeline.ownSems0_eq_of_list c osem [0, 1, 2, 3, 4, 5] (by decide) (by decide)]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 3 => semVal (kcell (c, k)) 0) ∗ locals c) : sProp 𝕄) := by
  rw [ownSems0_eq, unscopedSems0_eq, bigSep_fin3]
  unfold locals
  iintro ⟨⟨H0, H1, H2, H3, HS, HV⟩, HB⟩
  isplitl [HB HS HV]
  · isplitl [HB]; · iexact HB
    isplitl [HS] <;> iassumption
  isplitl [H0]; · iexact H0
  isplitl [H1]; · iexact H1
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 3 => semVal (kcell (c, k)) 0) ∗ bigSep Finset.univ fun k : Fin 3 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The tokens dealt along the pairing; the ghost state regrouped -/

def records (K : Dev nD × Fin 3 → ℕ) : sProp 𝕄 :=
  iprop((bigSep Finset.univ fun ck : Dev nD × Fin 3 => cellInv ER (a2aRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (a2aRd m) (K ck) (kcell ck) : sProp 𝕄)) ⊢ cellInv ER (a2aRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device c pays: its peer's barrier duty, its peer's receive duty, its own send duty. -/
def payToks (c : Dev nD) : sProp 𝕄 :=
  iprop(dutyTok ER (barCell (peer c)) 0 () ∗ dutyTok ER (recvCell (peer c)) 0 () ∗ dutyTok ER (sendCell c) 0 ())
/-- What stays with device c alone: its positions, the tokens it pays with, its local copies' counters. -/
def linear (c : Dev nD) : sProp 𝕄 :=
  iprop((atPos ER (barCell c) 0 ∅ 0 ∗ atPos ER (sendCell c) 0 ∅ 0 ∗ atPos ER (recvCell c) 0 ∅ 0) ∗ payToks c ∗ locals c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, ⟨HtB, HtV, HtS⟩, Hloc⟩
  isplitr [Hloc]
  · iexists K
    isplitr
    · isplitr; · iapply (inv_at m K (c, 0)); iexact HI
      isplitr; · iapply (inv_at m K (c, 1)); iexact HI
      isplitr; · iapply (inv_at m K (c, 2)); iexact HI
      isplitr; · iapply (inv_at m K (peer c, 0)); iexact HI
      iapply (inv_at m K (peer c, 2)); iexact HI
    isplitl [HaB]; · iexact HaB
    isplitl [HaS]; · iexact HaS
    isplitl [HaV]; · iexact HaV
    isplitr; · iapply (reached_at (F := F) (peer c, 0)); iexact HR
    isplitr; · iapply (reached_at (F := F) (peer c, 2)); iexact HR
    isplitr; · iapply (reached_at (F := F) (c, 1)); iexact HR
    isplitr; · iapply (reached_at (F := F) (c, 2)); iexact HR
    isplitl [HtB]; · iexact HtB
    isplitl [HtV]; · iexact HtV
    iexact HtS
  · iexact Hloc

/-- The tokens dealt along the pairing: a barrier cell's token and a receive cell's token go to the peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro :
    iprop((bigSep Finset.univ fun c : Dev nD => bigSep Finset.univ fun k : Fin 3 => (atPos ER (kcell (c, k)) 0 ∅ 0 : sProp 𝕄))
      ∗ (bigSep Finset.univ fun c : Dev nD => (payToks c : sProp 𝕄)) ∗ (bigSep Finset.univ fun c : Dev nD => (locals c : sProp 𝕄)))
    ⊢ bigSep Finset.univ fun c : Dev nD => (linear c : sProp 𝕄) := by
  rw [← bigSep_sep', ← bigSep_sep']
  exact bigSep_mono fun c _ => show _ ⊢ linear c from Entails.of_eq (by unfold linear; rw [bigSep_fin3])

theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × Fin 3 => iprop(∃ κ : ℕ, cellInv ER (a2aRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hloc⟩
  ihave HK := (BI.bigSep_exists_pi Finset.univ (fun (ck : Dev nD × Fin 3) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact Hloc

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device d owes device c's barrier cell: one unit if d is c's peer. -/
theorem owed_bar (d c : Dev nD) : O₀ d (barCell c) () = if d = peer c then 1 else 0 := by
  unfold O₀
  rw [Pi.add_apply, Finsupp.add_apply, tallyAt_ne_cell (g := recvCell (peer d)) (fun h => recv_ne_bar (congrArg Prod.snd h).symm),
    tallyAt_apply (barCell (peer d)), Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device d owes device c's receive cell: the block's credit if d is c's peer. -/
theorem owed_recv (d c : Dev nD) : O₀ d (recvCell c) () = if d = peer c then N else 0 := by
  unfold O₀
  rw [Pi.add_apply, Finsupp.add_apply, tallyAt_apply (recvCell (peer d)),
    tallyAt_ne_cell (g := barCell (peer d)) (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The theorem's side conditions -/

/-- What a device holds between the launch and its body: the body's start and the two arrays as launched. -/
def X (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))

/-- What it holds after the region: the argument as launched, the result at the exchange's values. -/
def Y (c : Dev nD) : sProp 𝕄 :=
  iprop((((c : Thread nD τ).loc main_arg0) ↦{fullShare} m ((c : Thread nD τ).loc main_arg0))
    ∗ (((c : Thread nD τ).loc main_v1) ↦{fullShare} outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, ⟨HG, Hloc⟩⟩
  ihave Hc := (creds (F := F) c) $$ Hcr
  icases Hc with ⟨H1, HN⟩
  imodintro
  unfold X start
  isplitl
  · isplitl [HG Hloc H1 HN Hlev]
    · isplitl [HG]; · iexact HG
      isplitl [Hloc]; · iexact Hloc
      isplitl [H1]; · iexact H1
      isplitl [HN]; · iexact HN
      iexact Hlev
    isplitl [Hx]; · iexact Hx
    iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Ho⟩, -, ⟨%f, Hr⟩⟩
  isplitl [Hs]; · iexact Hs
  isplitl [Hx]; · iexact Hx
  isplitl [Ho]; · iexact Ho
  iexists f; iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y locals
  iintro ⟨Hx, Ho, ⟨%f, Hv⟩, ⟨H0, H1, H2, H3⟩, HS, HR⟩
  isplitl [Hx Ho]
  · isplitl [Hx]; · iexact Hx
    iexact Ho
  isplitl [H0 H1 H2 H3 HS HR]
  · isplitl [H0]; · iexact H0
    isplitl [H1]; · iexact H1
    isplitl [H2]; · iexact H2
    isplitl [H3]; · iexact H3
    isplitl [HS]; · iexact HS
    iexact HR
  iexists f; iexact Hv

/-- No window: the pipeline waits on no cell. -/
theorem waits (c : Dev nD) : (levAts L lv : sProp 𝕄) ⊢ Pipeline.cellsWaits cfgs (dats m) () 0 c :=
  Pipeline.cellsWaits_intro cfgs (dats m) () 0 c fun w s t => w.elim0

/-- Reading the two arrays against the final state. -/
theorem final_read (c : Dev nD) (s' : Phys nD τ sig (Elt F)) :
    iprop(Y m c ∗ (emp : sProp 𝕄) ∗ SI s')
      ⊢ |={Set.univ}=> iprop(⌜s'.mem.mem ((c : Thread nD τ).loc main_v1) = outFinal m c
          ∧ s'.mem.mem ((c : Thread nD τ).loc main_arg0) = m ((c : Thread nD τ).loc main_arg0)⌝ ∗ SI s') := by
  unfold Y
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

/-! ## The run -/

set_option maxRecDepth 8000 in
/-- At the compiled mesh of eight devices, for any float values, from any memory with zero counters: if every device's body
    meets its obligation, every weakly fair execution of @main — the pairs handshaking on the barrier semaphore, then
    exchanging their blocks — terminates, and every final state has each device's result at the exchange's values and its
    argument unchanged. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = outFinal m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = outFinal m c ∧ s.mem ((c : Thread nD τ).loc main_arg0) = m ((c : Thread nD τ).loc main_arg0))
    (hY := final_read m)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KernelSpec.lean ====
/-
The all-to-all along the mesh axis y, as ONE function of the devices' argument blocks.

Device c sits at coordinate yc c on axis y; peer c is the device with that coordinate flipped and the
other two kept. Device c's result has 16384 rows and 1024 columns: rows [8192·y', 8192·y' + 8192) come
from the argument block of the device of the pair {c, peer c} whose y-coordinate is y', and of that
block's 2048 columns the result takes the 1024 starting at 1024·yc c.
-/
import proofs.«900626_g7700000000000627_dist_a2a_v7x_xyz2x2x2_y_m8192_n1024_f32_1_alg».proof.Kernel
import Idealize.ShloMosaic.Lib.ValueIdx

noncomputable section

namespace Cert.Kernel.A2A

open Idealize.ShloMosaic Idealize.ShloMosaic.TcCoe Idealize.ShloMosaic.ValueIdx

variable {F : FTy → Type} [FloatOps F]

/-- The device's coordinate on mesh axis y (devices are numbered row-major over x, y, z, each of extent 2). -/
def yc (c : Dev nD) : ℕ := (c.val / 2) % 2

theorem yc_lt (c : Dev nD) : yc c < 2 := Nat.mod_lt _ (by decide)

/-- The device with the same x and z coordinates and the other y coordinate. -/
def peer (c : Dev nD) : Dev nD :=
  ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide
theorem yc_peer (c : Dev nD) : yc (peer c) = 1 - yc c := by revert c; decide
theorem yc_cases (c : Dev nD) : yc c = 0 ∨ yc c = 1 := by have := yc_lt c; omega

/-- Which device of the pair row r of the result comes from. -/
def srcDev (c : Dev nD) (r : ℕ) : Dev nD := if r / 8192 = yc c then c else peer c

/-- Where in that device's argument block the result's entry i is read. -/
def srcIdx (c : Dev nD) (i : S16384x1024.Idx) : S8192x2048.Idx :=
  ix2 ⟨(i 0).val % 8192, Nat.mod_lt _ (by decide)⟩
    ⟨1024 * yc c + (i 1).val, by have := yc_lt c; have := idx2_lt1 i; omega⟩

/-- Device c's result after the exchange, entry by entry, from the argument blocks in the memory m. -/
def outFinal (m : (ℓ : Loc nD τ sig) → Buf (Elt F) ℓ) (c : Dev nD) : Buf (Elt F) ((c : Thread nD τ).loc main_v1) :=
  fun i => m ((srcDev c (i 0).val : Thread nD τ).loc main_arg0) (srcIdx c i)

end Cert.Kernel.A2A

end
-- ==== Proof.KernelCells.lean ====
/-
The exchange's protocol on a device pair {c, peer c} under the rounds discipline.

Cells of device c: its barrier cell (one unit, signalled by peer c: "peer c is inside the kernel, and here
are the rows of its result that c is to fill"), its send cell (the credit of the block c sends: its source
columns are read to the end) and its receive cell (the same credit: the block peer c sends has landed in
c's result). The four semaphores of c's local copies are c's own counters and are not shared.
-/
import proofs.«900626_g7700000000000627_dist_a2a_v7x_xyz2x2x2_y_m8192_n1024_f32_1_alg».proof.Proof.KernelSpec
import proofs.«900626_g7700000000000627_dist_a2a_v7x_xyz2x2x2_y_m8192_n1024_f32_1_alg».proof.Proof.Gen.Kernel
import proofs.«900626_g7700000000000627_dist_a2a_v7x_xyz2x2x2_y_m8192_n1024_f32_1_alg».proof.Proof.Gen.Kernel.Skeleton
import proofs.«900626_g7700000000000627_dist_a2a_v7x_xyz2x2x2_y_m8192_n1024_f32_1_alg».proof.Proof.Gen.Kernel.Launch
import proofs.«900626_g7700000000000627_dist_a2a_v7x_xyz2x2x2_y_m8192_n1024_f32_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's rounds, the local copies' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb

instance ER_landsIn : (ER : Emb UB (MT nD τ sig Unit (Elt F) ℕ UU ℕ)).LandsIn (upEmb : UEmb _ (MT nD τ sig Unit (Elt F) ℕ UU ℕ)) := by unfold ER; infer_instance

/-! ## Devices -/

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pairing : Dev nD ≃ Dev nD := ⟨peer, peer, peer_peer, peer_peer⟩

/-! ## Memrefs and cells -/

abbrev xM : Memref sig .tc .hbm S8192x2048 .f32 := Memref.whole main_arg0
abbrev oM : Memref sig .tc .hbm S16384x1024 .f32 := Memref.whole main_v1
abbrev vM : Memref sig .tc .vmem S2x1024x1024 .f32 := Memref.whole cc0_scratch0

/-- The columns of device s's argument block that s sends to its peer, and the rows of the PEER's result they fill. -/
abbrev srcV (s : Dev nD) : Memref sig .tc .hbm S8192x1024 .f32 :=
  xM.slice (Rect.unit (s := S8192x2048) (k0_off2 s) S8192x1024.size (k0_off2_inb s)) (fun _ => rfl)
abbrev dstV (s : Dev nD) : Memref sig .tc .hbm S8192x1024 .f32 :=
  oM.slice (Rect.unit (s := S16384x1024) (k0_off1 s) S8192x1024.size (k0_off1_inb s)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's six own DMA semaphores as the launch indexes them: the two load cells, the two store cells, send, receive. -/
abbrev osem : Fin 6 → SemLoc sig := fun k => .dma ⟨k.val, k.isLt⟩
/-- The three cells the pair shares, as this proof indexes them: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one exchanged block (8192 × 1024 words), whatever its offset. -/
def N : ℕ := (dstV (0 : Dev nD)).view.dmaCredit
theorem N_pos : 0 < N := View.dmaCredit_pos _ (by decide)
theorem N_dst (s : Dev nD) : (dstV s).view.dmaCredit = N := rfl
theorem N_src (s : Dev nD) : (srcV s).view.dmaCredit = N := rfl

end Cert.Kernel.A2A

end
-- ==== Proof.KernelProto.lean ====
/-
The schedule of the exchange, what each device owes at launch, the levels, and the data of the launch.

One round. Device c's barrier cell has one duty of one unit, paid by peer c's signal, which hands c the rows of
peer c's result that c's block is to fill, at whatever they hold, and the fact that peer c has reached round 0 of
its receive cell. c's send cell has one duty of the block's credit, paid by c's own transfer once its source
columns are read: it hands c those columns back. c's receive cell has one duty of the same credit, paid by peer
c's transfer once it has landed: it hands c the rows of its own result that peer c filled, holding the values the
exchange puts there.
-/
import proofs.«900626_g7700000000000627_dist_a2a_v7x_xyz2x2x2_y_m8192_n1024_f32_1_alg».proof.Proof.KernelCells

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- The rows of device d's result that the block sent by s fills, at contents f. -/
def rowsPts (d s : Dev nD) (f : Buf (Elt F) ((dstV s).view.loc (d : Thread nD τ))) : sProp 𝕄 :=
  (dstV s).view.loc (d : Thread nD τ) ↦[(dstV s).view.set]{fullShare} f
/-- The columns of device c's argument block that c sends, at the left half share, holding what the memory holds. -/
def colsPts (c : Dev nD) : sProp 𝕄 :=
  (srcV c).view.loc (c : Thread nD τ) ↦[(srcV c).view.set]{fullShare.left} m ((c : Thread nD τ).loc main_arg0)

def barPay (c : Dev nD) : sProp 𝕄 := iprop((∃ f, rowsPts (peer c) c f) ∗ reached ER (recvCell (peer c)) 0)
def recvPay (c : Dev nD) : sProp 𝕄 := rowsPts c (peer c) (outFinal m c)
def sendPay (c : Dev nD) : sProp 𝕄 := colsPts m c

instance rowsPts_storable (d s : Dev nD) (f) : BI.Storable (upEmb : UEmb _ 𝕄) (rowsPts (F := F) d s f) := by unfold rowsPts; infer_instance
instance colsPts_storable (c : Dev nD) : BI.Storable (upEmb : UEmb _ 𝕄) (colsPts (F := F) m c) := by unfold colsPts; infer_instance

/-! ## The schedule -/

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def a2aRd : Rounds.Schedule (GSem nD τ sig) Unit 𝕄 where
  duties g r := if r = 0 ∧ IsBar g then {()} else if r = 0 ∧ IsXfer g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance a2aRd_payload_storable (g : GSem nD τ sig) (r : ℕ) (d : Unit) :
    BI.Storable (upEmb : UEmb _ 𝕄) ((a2aRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

omit [FloatOps F] in
theorem duties_bar : (a2aRd (F := F) m).duties (barCell c) 0 = {()} := by dsimp only [a2aRd]; exact if_pos ⟨rfl, rfl, rfl⟩
omit [FloatOps F] in
theorem duties_send : (a2aRd (F := F) m).duties (sendCell c) 0 = {()} := by
  dsimp only [a2aRd]; rw [if_neg (fun h => not_bar_send c h.2)]; exact if_pos ⟨rfl, rfl, .inl rfl⟩
omit [FloatOps F] in
theorem duties_recv : (a2aRd (F := F) m).duties (recvCell c) 0 = {()} := by
  dsimp only [a2aRd]; rw [if_neg (fun h => not_bar_recv c h.2)]; exact if_pos ⟨rfl, rfl, .inr rfl⟩
omit [FloatOps F] in
theorem duties_later (g : GSem nD τ sig) : ∀ r, 1 ≤ r → (a2aRd (F := F) m).duties g r = ∅ :=
  fun r hr => by dsimp only [a2aRd]; rw [if_neg fun h => by omega, if_neg fun h => by omega]

omit [FloatOps F] in
theorem amount_bar (d : Unit) : (a2aRd (F := F) m).amount (barCell c) 0 d = 1 := by dsimp only [a2aRd]; exact if_pos rfl
omit [FloatOps F] in
theorem amount_send (d : Unit) : (a2aRd (F := F) m).amount (sendCell c) 0 d = N := by dsimp only [a2aRd]; exact if_neg send_ne_bar
omit [FloatOps F] in
theorem amount_recv (d : Unit) : (a2aRd (F := F) m).amount (recvCell c) 0 d = N := by dsimp only [a2aRd]; exact if_neg recv_ne_bar

omit [FloatOps F] in
theorem expect_bar : (a2aRd (F := F) m).expect (barCell c) 0 = 1 := by
  rw [Schedule.expect, duties_bar]; exact (Finset.sum_singleton _ _).trans (amount_bar m c ())
omit [FloatOps F] in
theorem expect_send : (a2aRd (F := F) m).expect (sendCell c) 0 = N := by
  rw [Schedule.expect, duties_send]; exact (Finset.sum_singleton _ _).trans (amount_send m c ())
omit [FloatOps F] in
theorem expect_recv : (a2aRd (F := F) m).expect (recvCell c) 0 = N := by
  rw [Schedule.expect, duties_recv]; exact (Finset.sum_singleton _ _).trans (amount_recv m c ())

omit [FloatOps F] in
theorem payload_bar (d : Unit) : (a2aRd (F := F) m).payload (barCell c) 0 d = barPay c := by dsimp only [a2aRd]; rw [if_pos rfl]
omit [FloatOps F] in
theorem payload_send (d : Unit) : (a2aRd (F := F) m).payload (sendCell c) 0 d = sendPay m c := by
  dsimp only [a2aRd]; rw [if_neg send_ne_bar, if_neg send_ne_recv, if_pos rfl]
omit [FloatOps F] in
theorem payload_recv (d : Unit) : (a2aRd (F := F) m).payload (recvCell c) 0 d = recvPay m c := by
  dsimp only [a2aRd]; rw [if_neg recv_ne_bar, if_pos rfl]

omit [FloatOps F] in
theorem rest_bar : bigSep ((a2aRd (F := F) m).duties (barCell c) 0 \ ∅) (fun d => (a2aRd (F := F) m).payload (barCell c) 0 d) = barPay c := by
  rw [Finset.sdiff_empty, duties_bar, bigSep_singleton, payload_bar]
omit [FloatOps F] in
theorem rest_send : bigSep ((a2aRd (F := F) m).duties (sendCell c) 0 \ ∅) (fun d => (a2aRd (F := F) m).payload (sendCell c) 0 d) = sendPay m c := by
  rw [Finset.sdiff_empty, duties_send, bigSep_singleton, payload_send]
omit [FloatOps F] in
theorem rest_recv : bigSep ((a2aRd (F := F) m).duties (recvCell c) 0 \ ∅) (fun d => (a2aRd (F := F) m).payload (recvCell c) 0 d) = recvPay m c := by
  rw [Finset.sdiff_empty, duties_recv, bigSep_singleton, payload_recv]

end Sched

/-! ## What each device owes at launch; the levels -/

/-- Device c owes peer c's receive cell the block's credit and peer c's barrier cell one unit (the signal comes first:
    it peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (send, the local copies' cells) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes peer c's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The ghost state and the launch's data -/

/-- A local copy's cell: the kernel's own DMA semaphore k (0, 1 the loads', 2, 3 the stores'). -/
abbrev lcell (c : Dev nD) (k : Fin 4) : GSem nD τ sig := ((c : Thread nD τ), .dma ⟨k.val, by have := k.isLt; show k.val < 6; omega⟩)

def locals (c : Dev nD) : sProp 𝕄 :=
  iprop(semVal (lcell c 0) 0 ∗ semVal (lcell c 1) 0 ∗ semVal (lcell c 2) 0 ∗ semVal (lcell c 3) 0)

/-- The cells' invariants device c's body opens, under the names K the launch allocated them at: its own three, peer c's
    barrier cell (its signal) and receive cell (its transfer). -/
def invs (K : Dev nD × Fin 3 → ℕ) (c : Dev nD) : sProp 𝕄 :=
  iprop(cellInv ER (a2aRd m) (K (c, 0)) (barCell c) ∗ cellInv ER (a2aRd m) (K (c, 1)) (sendCell c) ∗ cellInv ER (a2aRd m) (K (c, 2)) (recvCell c)
    ∗ cellInv ER (a2aRd m) (K (peer c, 0)) (barCell (peer c)) ∗ cellInv ER (a2aRd m) (K (peer c, 2)) (recvCell (peer c)))

instance invs_persistent (K : Dev nD × Fin 3 → ℕ) (c : Dev nD) : BI.Persistent (invs m K c) := by unfold invs; infer_instance

/-- The ghost state device c starts from: the invariants; its positions at round 0 of its three cells; the reached-marks of
    the cells it pays and of its own; the three duty tokens it pays with — peer c's barrier duty, peer c's receive duty,
    its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from besides its buffers. -/
def start (c : Dev nD) : sProp 𝕄 :=
  iprop((∃ K, ghost m K c) ∗ locals c ∗ cred (tallyAt (barCell c) () 1) ∗ cred (tallyAt (recvCell c) () N) ∗ levAts L lv)

/-- Before the point: that, the two arrays as launched, the scratch at anything. -/
def Φ₀ (c : Dev nD) : sProp 𝕄 :=
  iprop(start m c ∗ (xM.view.loc (c : Thread nD τ) ↦{fullShare} m ((c : Thread nD τ).loc main_arg0))
    ∗ (oM.view.loc (c : Thread nD τ) ↦{fullShare} m ((c : Thread nD τ).loc main_v1))
    ∗ ∃ f, vM.view.loc (c : Thread nD τ) ↦{fullShare} f)
/-- After the point: the argument as launched, the result at the exchange's values, the scratch at anything, the kernel's six
    own cells at zero (the barrier cell is the runtime's: nothing to hand back). -/
def Φ₁ (c : Dev nD) : sProp 𝕄 :=
  iprop((xM.view.loc (c : Thread nD τ) ↦{fullShare} m ((c : Thread nD τ).loc main_arg0))
    ∗ (oM.view.loc (c : Thread nD τ) ↦{fullShare} outFinal m c)
    ∗ (∃ f, vM.view.loc (c : Thread nD τ) ↦{fullShare} f)
    ∗ locals c ∗ semVal (sendCell c) 0 ∗ semVal (recvCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.A2A

end
-- ==== Proof.KernelValue.lean ====
/-
The values the exchange's copies land, entry by entry.

A block of 8192 × 1024 entries that device c sends lands in the rows [8192·yc c, 8192·yc c + 8192) of peer c's
result, from the columns [1024·yc (peer c), …) of c's argument block: that is what the exchange puts in those rows of
peer c's result. The eight tiles of 1024 × 1024 entries that c copies for itself land in the rows
[8192·yc c + 1024·t, …) of its own result, from the rows [1024·t, …) and the columns [1024·yc c, …) of its own block.
-/
import proofs.«900626_g7700000000000627_dist_a2a_v7x_xyz2x2x2_y_m8192_n1024_f32_1_alg».proof.Proof.KernelCells
import Idealize.ShloMosaic.Lib.Pipeline.Value

noncomputable section

namespace Cert.Kernel.A2A

open Cert.Kernel Cert.Kernel.Gen

open Idealize.ShloMosaic
open Idealize.ShloMosaic.TcCoe

variable {F : FTy → Type} [FloatOps F]

variable (m : (ℓ : Loc nD τ sig) → Buf (Elt F) ℓ)

/-- A coordinate of a unit-stride block's entry in the enclosing array: the block's offset plus the entry's own coordinate. -/
theorem unit_emb_val {s : Shape} (off size : Fin s.rank → ℕ) (inb : ∀ a, off a + size a ≤ s.size a)
    (y : (Rect.unit off size inb).shape.Idx) (a : Fin s.rank) :
    ((Rect.unit off size inb).emb y a).val = off a + (y a).val := by
  show off a + 1 * (y a).val = _
  omega

/-- Writing through a block of a whole array, everywhere, puts the payload's entry y at the block's entry y. -/
theorem write_block_emb {sig : RefSig} {κ : Kind} {Val : EltTy → Type} (b : Ref sig κ) (r : Rect b.ty.shape)
    (f : ((View.whole b).slice r).ty.Contents Val) (w : r.shape.Idx → Val b.ty.elt) (y : r.shape.Idx) :
    ((View.whole b).slice r).write Val f w Finset.univ (r.emb y) = w y := by
  have h := View.write_emb_of_mem (v := (View.whole b).slice r) f w (Finset.mem_univ y)
  exact h

/-- Reading through a block of a whole array gives the array's entry under the block's entry. -/
theorem read_block {sig : RefSig} {κ : Kind} {Val : EltTy → Type} (b : Ref sig κ) (r : Rect b.ty.shape)
    (f : ((View.whole b).slice r).ty.Contents Val) (y : r.shape.Idx) :
    ((View.whole b).slice r).read Val f y = f (r.emb y) := rfl

theorem off1_0 (c : Dev nD) : k0_off1 c 0 = 8192 * yc c := by
  rw [k0_off1_eq]; simp only [yc, Matrix.cons_val_zero]
theorem off1_1 (c : Dev nD) : k0_off1 c 1 = 0 := by
  rw [k0_off1_eq]; simp only [Matrix.cons_val_one, Matrix.cons_val_zero, Matrix.head_cons]
theorem off2_0 (c : Dev nD) : k0_off2 c 0 = 0 := by
  rw [k0_off2_eq]; simp only [Matrix.cons_val_zero]
theorem off2_1 (c : Dev nD) : k0_off2 c 1 = 1024 - 1024 * yc c := by
  rw [k0_off2_eq]; simp only [yc, Matrix.cons_val_one, Matrix.cons_val_zero, Matrix.head_cons]

theorem landed_eq (c : Dev nD) (fn : Buf (Elt F) ((dstV c).view.loc (peer c : Thread nD τ))) :
    ∀ i ∈ (dstV c).view.set,
      ((dstV c).view.write (Elt F) fn ((srcV c).view.read (Elt F) (m ((c : Thread nD τ).loc main_arg0))) Finset.univ) i
        = outFinal m (peer c) i := by
  intro i hi
  obtain ⟨y, rfl⟩ := View.exists_emb_of_mem_set _ hi
  have hy0 : (y 0).val < 8192 := (y 0).isLt
  have hy1 : (y 1).val < 1024 := (y 1).isLt
  have hyc := yc_lt c
  have hycp := yc_peer c
  -- the landed entry's coordinates in the result
  have e0 : (((dstV c).view.emb y) 0).val = 8192 * yc c + (y 0).val := by
    have h := unit_emb_val (s := S16384x1024) (k0_off1 c) S8192x1024.size (k0_off1_inb c) y 0
    rw [off1_0] at h
    exact h
  have e1 : (((dstV c).view.emb y) 1).val = (y 1).val := by
    have h := unit_emb_val (s := S16384x1024) (k0_off1 c) S8192x1024.size (k0_off1_inb c) y 1
    rw [off1_1, Nat.zero_add] at h
    exact h
  -- the entry's coordinates in the sender's argument block
  have s0 : (((srcV c).view.emb y) 0).val = (y 0).val := by
    have h := unit_emb_val (s := S8192x2048) (k0_off2 c) S8192x1024.size (k0_off2_inb c) y 0
    rw [off2_0, Nat.zero_add] at h
    exact h
  have s1 : (((srcV c).view.emb y) 1).val = 1024 - 1024 * yc c + (y 1).val := by
    have h := unit_emb_val (s := S8192x2048) (k0_off2 c) S8192x1024.size (k0_off2_inb c) y 1
    rw [off2_1] at h
    exact h
  -- the row lies in the half of the peer's result that the peer does not fill itself
  have hd : srcDev (peer c) (((dstV c).view.emb y) 0).val = c := by
    unfold srcDev
    rw [if_neg (by rw [e0, hycp]; omega), peer_peer]
  refine (write_block_emb main_v1 _ fn _ y).trans ?_
  refine (read_block (Val := Elt F) main_arg0 (Rect.unit (s := S8192x2048) (k0_off2 c) S8192x1024.size (k0_off2_inb c))
    (m ((c : Thread nD τ).loc main_arg0)) y).trans ?_
  unfold outFinal
  rw [hd]
  refine congrArg _ ?_
  funext a
  match a with
  | ⟨0, _⟩ =>
    refine Fin.ext ?_
    show (((srcV c).view.emb y) 0).val = (((dstV c).view.emb y) 0).val % 8192
    rw [s0, e0]; omega
  | ⟨1, _⟩ =>
    refine Fin.ext ?_
    show (((srcV c).view.emb y) 1).val = 1024 * yc (peer c) + (((dstV c).view.emb y) 1).val
    rw [s1, e1, hycp]; omega

/-- Off a block, writing through the block of a whole array leaves the earlier contents. -/
theorem write_block_of_not_mem {sig : RefSig} {κ : Kind} {Val : EltTy → Type} (b : Ref sig κ) (r : Rect b.ty.shape)
    (f : ((View.whole b).slice r).ty.Contents Val) (w : r.shape.Idx → Val b.ty.elt) {i : b.ty.shape.Idx}
    (h : i ∉ r.set) : ((View.whole b).slice r).write Val f w Finset.univ i = f i :=
  View.write_of_not_mem f w Finset.univ (by rw [View.setOn_univ, View.set_slice_whole]; exact h)

/-- One of the device's own eight copies: tile t of its argument block (rows from r0 = 1024·t, columns from 1024·yc c)
    written over the rows [8192·yc c + r0, 8192·yc c + r0 + 1024) of its result. On those rows the result holds what the
    exchange is to leave there; elsewhere the earlier contents stay. -/
theorem tile_step (c : Dev nD) (t : Fin 8) (off : Fin 2 → ℕ) (inb : ∀ a, off a + S1024x1024.size a ≤ S8192x2048.size a)
    (r0 : ℕ) (hoff : off = ![r0, 1024 * ((c.val / 2) % 2)]) (hr0 : r0 = 1024 * t.val)
    (prev : Buf (Elt F) ((c : Thread nD τ).loc main_v1)) (i : S16384x1024.Idx) :
    View.write (Elt F) (oM.slice (Rect.unit (s := S16384x1024) (k0_off4 c (BitVec.ofNat 32 (1024 * t.val))) S1024x1024.size (k0_off4_inb c t)) (fun _ => rfl)).view
        prev
        (View.read (Elt F) (xM.slice (Rect.unit (s := S8192x2048) off S1024x1024.size inb) (fun _ => rfl)).view (m ((c : Thread nD τ).loc main_arg0)))
        Finset.univ i
      = if 8192 * yc c + r0 ≤ (i 0).val ∧ (i 0).val < 8192 * yc c + r0 + 1024 then outFinal m c i else prev i := by
  have hyc := yc_lt c
  have ht := t.isLt
  have hi1 : (i 1).val < 1024 := (i 1).isLt
  have o0 : k0_off4 c (BitVec.ofNat 32 (1024 * t.val)) 0 = 8192 * yc c + r0 := by
    rw [k0_off4_eq, hr0]; simp only [yc, Matrix.cons_val_zero]
  have o1 : k0_off4 c (BitVec.ofNat 32 (1024 * t.val)) 1 = 0 := by
    rw [k0_off4_eq]; simp only [Matrix.cons_val_one, Matrix.cons_val_zero, Matrix.head_cons]
  have x0 : off 0 = r0 := by rw [hoff]; simp only [Matrix.cons_val_zero]
  have x1 : off 1 = 1024 * yc c := by
    rw [hoff]; simp only [yc, Matrix.cons_val_one, Matrix.cons_val_zero, Matrix.head_cons]
  split_ifs with h
  · -- the entry lies in the tile: it is the tile's entry y
    have hmem : i ∈ (Rect.unit (s := S16384x1024) (k0_off4 c (BitVec.ofNat 32 (1024 * t.val))) S1024x1024.size (k0_off4_inb c t)).set := by
      refine Rect.mem_set_unit.mpr fun a => ?_
      match a with
      | ⟨0, _⟩ =>
        show k0_off4 c (BitVec.ofNat 32 (1024 * t.val)) 0 ≤ (i 0).val ∧ (i 0).val < k0_off4 c (BitVec.ofNat 32 (1024 * t.val)) 0 + 1024
        rw [o0]; exact h
      | ⟨1, _⟩ =>
        show k0_off4 c (BitVec.ofNat 32 (1024 * t.val)) 1 ≤ (i 1).val ∧ (i 1).val < k0_off4 c (BitVec.ofNat 32 (1024 * t.val)) 1 + 1024
        rw [o1]; omega
    obtain ⟨y, hy⟩ : ∃ y, (Rect.unit (s := S16384x1024) (k0_off4 c (BitVec.ofNat 32 (1024 * t.val))) S1024x1024.size (k0_off4_inb c t)).emb y = i :=
      LoadRect.exists_idx_of_mem _ hmem
    subst hy
    have hy0 : (y 0).val < 1024 := (y 0).isLt
    have hy1 : (y 1).val < 1024 := (y 1).isLt
    have e0 := unit_emb_val (s := S16384x1024) (k0_off4 c (BitVec.ofNat 32 (1024 * t.val))) S1024x1024.size (k0_off4_inb c t) y 0
    have e1 := unit_emb_val (s := S16384x1024) (k0_off4 c (BitVec.ofNat 32 (1024 * t.val))) S1024x1024.size (k0_off4_inb c t) y 1
    rw [o0] at e0
    rw [o1, Nat.zero_add] at e1
    have s0 := unit_emb_val (s := S8192x2048) off S1024x1024.size inb y 0
    have s1 := unit_emb_val (s := S8192x2048) off S1024x1024.size inb y 1
    rw [x0] at s0
    rw [x1] at s1
    have hd : srcDev c (((Rect.unit (s := S16384x1024) (k0_off4 c (BitVec.ofNat 32 (1024 * t.val))) S1024x1024.size (k0_off4_inb c t)).emb y) 0).val = c := by
      unfold srcDev
      rw [if_pos (by rw [e0]; omega)]
    refine (write_block_emb (Val := Elt F) main_v1
      (Rect.unit (s := S16384x1024) (k0_off4 c (BitVec.ofNat 32 (1024 * t.val))) S1024x1024.size (k0_off4_inb c t)) prev
      (View.read (Elt F) (xM.slice (Rect.unit (s := S8192x2048) off S1024x1024.size inb) (fun _ => rfl)).view
        (m ((c : Thread nD τ).loc main_arg0))) y).trans ?_
    refine (read_block (Val := Elt F) main_arg0 (Rect.unit (s := S8192x2048) off S1024x1024.size inb)
      (m ((c : Thread nD τ).loc main_arg0)) y).trans ?_
    unfold outFinal
    rw [hd]
    refine congrArg _ ?_
    funext a
    match a with
    | ⟨0, _⟩ =>
      refine Fin.ext ?_
      show (((Rect.unit (s := S8192x2048) off S1024x1024.size inb).emb y) 0).val
        = (((Rect.unit (s := S16384x1024) (k0_off4 c (BitVec.ofNat 32 (1024 * t.val))) S1024x1024.size (k0_off4_inb c t)).emb y) 0).val % 8192
      rw [s0, e0]; omega
    | ⟨1, _⟩ =>
      refine Fin.ext ?_
      show (((Rect.unit (s := S8192x2048) off S1024x1024.size inb).emb y) 1).val
        = 1024 * yc c + (((Rect.unit (s := S16384x1024) (k0_off4 c (BitVec.ofNat 32 (1024 * t.val))) S1024x1024.size (k0_off4_inb c t)).emb y) 1).val
      rw [s1, e1]
  · -- the entry lies off the tile
    refine write_block_of_not_mem (Val := Elt F) main_v1
      (Rect.unit (s := S16384x1024) (k0_off4 c (BitVec.ofNat 32 (1024 * t.val))) S1024x1024.size (k0_off4_inb c t)) prev
      (View.read (Elt F) (xM.slice (Rect.unit (s := S8192x2048) off S1024x1024.size inb) (fun _ => rfl)).view
        (m ((c : Thread nD τ).loc main_arg0))) ?_
    intro hmem
    have h0' : k0_off4 c (BitVec.ofNat 32 (1024 * t.val)) 0 ≤ (i 0).val
        ∧ (i 0).val < k0_off4 c (BitVec.ofNat 32 (1024 * t.val)) 0 + 1024 := Rect.mem_set_unit.mp hmem 0
    rw [o0] at h0'
    exact h h0'

theorem own_rows_eq (c : Dev nD) (P0 P1 P2 P3 P4 P5 P6 P7 : S1024x1024.Idx → Elt F .f32)
    (h0 : P0 = View.read (Elt F) (xM.slice (Rect.unit (s := S8192x2048) (k0_off3 c) S1024x1024.size (k0_off3_inb c)) (fun _ => rfl)).view (m ((c : Thread nD τ).loc main_arg0)))
    (h1 : P1 = View.read (Elt F) (xM.slice (Rect.unit (s := S8192x2048) (k0_off5 c) S1024x1024.size (k0_off5_inb c)) (fun _ => rfl)).view (m ((c : Thread nD τ).loc main_arg0)))
    (h2 : P2 = View.read (Elt F) (xM.slice (Rect.unit (s := S8192x2048) (k0_off6 c) S1024x1024.size (k0_off6_inb c)) (fun _ => rfl)).view (m ((c : Thread nD τ).loc main_arg0)))
    (h3 : P3 = View.read (Elt F) (xM.slice (Rect.unit (s := S8192x2048) (k0_off7 c) S1024x1024.size (k0_off7_inb c)) (fun _ => rfl)).view (m ((c : Thread nD τ).loc main_arg0)))
    (h4 : P4 = View.read (Elt F) (xM.slice (Rect.unit (s := S8192x2048) (k0_off8 c) S1024x1024.size (k0_off8_inb c)) (fun _ => rfl)).view (m ((c : Thread nD τ).loc main_arg0)))
    (h5 : P5 = View.read (Elt F) (xM.slice (Rect.unit (s := S8192x2048) (k0_off9 c) S1024x1024.size (k0_off9_inb c)) (fun _ => rfl)).view (m ((c : Thread nD τ).loc main_arg0)))
    (h6 : P6 = View.read (Elt F) (xM.slice (Rect.unit (s := S8192x2048) (k0_off10 c) S1024x1024.size (k0_off10_inb c)) (fun _ => rfl)).view (m ((c : Thread nD τ).loc main_arg0)))
    (h7 : P7 = View.read (Elt F) (xM.slice (Rect.unit (s := S8192x2048) (k0_off11 c) S1024x1024.size (k0_off11_inb c)) (fun _ => rfl)).view (m ((c : Thread nD τ).loc main_arg0))) :
    ∀ i ∈ Finset.univ \ (dstV (peer c)).view.set,
      (View.write (Elt F) (oM.slice (Rect.unit (s := S16384x1024) (k0_off4 c 7168#32) S1024x1024.size (k0_off4_inb c 7)) (fun _ => rfl)).view
        (View.write (Elt F) (oM.slice (Rect.unit (s := S16384x1024) (k0_off4 c 6144#32) S1024x1024.size (k0_off4_inb c 6)) (fun _ => rfl)).view
        (View.write (Elt F) (oM.slice (Rect.unit (s := S16384x1024) (k0_off4 c 5120#32) S1024x1024.size (k0_off4_inb c 5)) (fun _ => rfl)).view
        (View.write (Elt F) (oM.slice (Rect.unit (s := S16384x1024) (k0_off4 c 4096#32) S1024x1024.size (k0_off4_inb c 4)) (fun _ => rfl)).view
        (View.write (Elt F) (oM.slice (Rect.unit (s := S16384x1024) (k0_off4 c 3072#32) S1024x1024.size (k0_off4_inb c 3)) (fun _ => rfl)).view
        (View.write (Elt F) (oM.slice (Rect.unit (s := S16384x1024) (k0_off4 c 2048#32) S1024x1024.size (k0_off4_inb c 2)) (fun _ => rfl)).view
        (View.write (Elt F) (oM.slice (Rect.unit (s := S16384x1024) (k0_off4 c 1024#32) S1024x1024.size (k0_off4_inb c 1)) (fun _ => rfl)).view
        (View.write (Elt F) (oM.slice (Rect.unit (s := S16384x1024) (k0_off4 c 0#32) S1024x1024.size (k0_off4_inb c 0)) (fun _ => rfl)).view
        (m ((c : Thread nD τ).loc main_v1))
        P0 Finset.univ)
        P1 Finset.univ)
        P2 Finset.univ)
        P3 Finset.univ)
        P4 Finset.univ)
        P5 Finset.univ)
        P6 Finset.univ)
        P7 Finset.univ) i = outFinal m c i := by
  intro i hi
  subst h0 h1 h2 h3 h4 h5 h6 h7
  have hyc := yc_lt c
  have hi0 : (i 0).val < 16384 := (i 0).isLt
  have hi1 : (i 1).val < 1024 := (i 1).isLt
  -- off the rows the peer fills, the row lies in the half the device fills itself
  have hr : 8192 * yc c ≤ (i 0).val ∧ (i 0).val < 8192 * yc c + 8192 := by
    by_contra hcon
    refine (Finset.mem_sdiff.mp hi).2 ?_
    rw [View.set_slice_whole]
    refine Rect.mem_set_unit.mpr fun a => ?_
    match a with
    | ⟨0, _⟩ =>
      show k0_off1 (peer c) 0 ≤ (i 0).val ∧ (i 0).val < k0_off1 (peer c) 0 + 8192
      rw [off1_0, yc_peer]; omega
    | ⟨1, _⟩ =>
      show k0_off1 (peer c) 1 ≤ (i 1).val ∧ (i 1).val < k0_off1 (peer c) 1 + 1024
      rw [off1_1]; omega
  -- peel the eight copies from the last one written: the row's tile gives the value, the others leave it
  refine (tile_step m c 7 (k0_off11 c) (k0_off11_inb c) 7168 (k0_off11_eq c) rfl _ i).trans ?_
  split_ifs with a7
  · rfl
  refine (tile_step m c 6 (k0_off10 c) (k0_off10_inb c) 6144 (k0_off10_eq c) rfl _ i).trans ?_
  split_ifs with a6
  · rfl
  refine (tile_step m c 5 (k0_off9 c) (k0_off9_inb c) 5120 (k0_off9_eq c) rfl _ i).trans ?_
  split_ifs with a5
  · rfl
  refine (tile_step m c 4 (k0_off8 c) (k0_off8_inb c) 4096 (k0_off8_eq c) rfl _ i).trans ?_
  split_ifs with a4
  · rfl
  refine (tile_step m c 3 (k0_off7 c) (k0_off7_inb c) 3072 (k0_off7_eq c) rfl _ i).trans ?_
  split_ifs with a3
  · rfl
  refine (tile_step m c 2 (k0_off6 c) (k0_off6_inb c) 2048 (k0_off6_eq c) rfl _ i).trans ?_
  split_ifs with a2
  · rfl
  refine (tile_step m c 1 (k0_off5 c) (k0_off5_inb c) 1024 (k0_off5_eq c) rfl _ i).trans ?_
  split_ifs with a1
  · rfl
  refine (tile_step m c 0 (k0_off3 c) (k0_off3_inb c) 0 (k0_off3_eq c) rfl _ i).trans ?_
  split_ifs with a0
  · rfl
  exfalso; omega

/-- info: 'Cert.Kernel.A2A.landed_eq' depends on axioms: [propext, Classical.choice, Quot.sound] -/
#guard_msgs in #print axioms landed_eq

/-- info: 'Cert.Kernel.A2A.own_rows_eq' depends on axioms: [propext, Classical.choice, Quot.sound] -/
#guard_msgs in #print axioms own_rows_eq

end Cert.Kernel.A2A

end
-- ==== Proof.KernelBody.lean ====
/-
One device's body of the exchange, stepped from the device's own invariant.

Device c signals peer c's barrier cell, handing over the rows of its own result that peer c's block fills; waits
for peer c's signal and so receives the matching rows of peer c's result; sends its block's other columns there;
copies its own columns tile by tile through the two halves of the scratch into its own rows; and waits for the
tiles, for its send (its source columns come back) and for peer c's block (its rows come back, filled).
-/
import proofs.«900626_g7700000000000627_dist_a2a_v7x_xyz2x2x2_y_m8192_n1024_f32_1_alg».proof.Proof.KernelProto
import proofs.«900626_g7700000000000627_dist_a2a_v7x_xyz2x2x2_y_m8192_n1024_f32_1_alg».proof.Proof.KernelValue
import Idealize.ShloMosaic.Lib.Pipeline.Value

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

def bodyPre (c : Dev nD) : sProp 𝕄 :=
  iprop(ghost m K c ∗ locals c ∗ cred (tallyAt (barCell c) () 1) ∗ cred (tallyAt (recvCell c) () N) ∗ levAts L lv
    ∗ (xM.view.loc (c : Thread nD τ) ↦{fullShare} m ((c : Thread nD τ).loc main_arg0))
    ∗ (oM.view.loc (c : Thread nD τ) ↦{fullShare} m ((c : Thread nD τ).loc main_v1))
    ∗ (∃ f, vM.view.loc (c : Thread nD τ) ↦{fullShare} f)
    ∗ (dats m 0 c).owesAt () t₀.castSucc)

def bodyPost (c : Dev nD) : sProp 𝕄 := iprop(Φ₁ m c ∗ (dats m 0 c).owesAt () t₀.succ)

/-- A tile of c's own rows lies off the rows peer c's block fills. -/
theorem tile_disjoint (c : Dev nD) (r : Fin 8) :
    Disjoint (oM.slice (Rect.unit (s := S16384x1024) (k0_off4 c (BitVec.ofNat 32 (1024 * r.val))) S1024x1024.size (k0_off4_inb c r)) (fun _ => rfl)).view.set
      (dstV (peer c)).view.set := by
  rw [View.set_slice_whole, View.set_slice_whole]
  refine Rect.unit_disjoint (0 : Fin 2) ?_
  rw [k0_off4_eq c r, k0_off1_eq (peer c)]
  have hr := r.isLt
  have hy := yc_cases c
  have hp := yc_peer c
  simp only [yc] at hy hp
  dsimp only
  simp only [Matrix.cons_val_zero]
  omega

omit [FloatOps F] in
/-- What c's send cell hands back: the columns it sent. -/
theorem pay_send (c : Dev nD) :
    bigSep ((a2aRd (F := F) m).duties (sendCell c) 0) (fun d => (a2aRd (F := F) m).payload (sendCell c) 0 d)
      = (xM.view.loc (c : Thread nD τ) ↦[(srcV c).view.set]{fullShare.left} m ((c : Thread nD τ).loc main_arg0) : sProp 𝕄) := by
  rw [duties_send, bigSep_singleton, payload_send]; rfl
omit [FloatOps F] in
/-- What c's receive cell hands over: the rows peer c's block filled, at the exchange's values. -/
theorem pay_recv (c : Dev nD) :
    bigSep ((a2aRd (F := F) m).duties (recvCell c) 0) (fun d => (a2aRd (F := F) m).payload (recvCell c) 0 d)
      = (oM.view.loc (c : Thread nD τ) ↦[(dstV (peer c)).view.set]{fullShare} outFinal m c : sProp 𝕄) := by
  rw [duties_recv, bigSep_singleton, payload_recv]; rfl

omit [FloatOps F] in
theorem rest_send' (c : Dev nD) :
    bigSep ((a2aRd (F := F) m).duties (sendCell c) 0 \ ∅) (fun d => (a2aRd (F := F) m).payload (sendCell c) 0 d)
      = (xM.view.loc (c : Thread nD τ) ↦[(srcV c).view.set]{fullShare.left} m ((c : Thread nD τ).loc main_arg0) : sProp 𝕄) :=
  (rest_send m c).trans rfl
omit [FloatOps F] in
theorem rest_recv' (c : Dev nD) :
    bigSep ((a2aRd (F := F) m).duties (recvCell c) 0 \ ∅) (fun d => (a2aRd (F := F) m).payload (recvCell c) 0 d)
      = (oM.view.loc (c : Thread nD τ) ↦[(dstV (peer c)).view.set]{fullShare} outFinal m c : sProp 𝕄) :=
  (rest_recv m c).trans rfl

/-- A credit token kept aside until the wait that spends it. -/
def aside (P : sProp 𝕄) : sProp 𝕄 := P
omit [FloatOps F] in
theorem aside_intro (P : sProp 𝕄) : P ⊢ aside P := BI.Entails.refl _
omit [FloatOps F] in
theorem aside_elim (P : sProp 𝕄) : aside P ⊢ P := BI.Entails.refl _

/-- The send rule at the pair's cells, the transfer addressed to n = peer c (substituted, not rewritten). -/
theorem wp_send_a2a (c n : Dev nD) (hn : n = peer c)
    {hsc : (dstV c : Memref sig (Dev.tc n : Thread nD τ).2.kind .hbm S8192x1024 .f32).view.ref.isScScratch = false}
    {hsrc : (srcV c).view.WordExact} {hdst : (dstV c).view.WordExact}
    {hsem : DmaTarget.Typed .hbm (.dma recvS.sem) (.remote (Dev.tc n : Thread nD τ) (dstV c) (.dma sendS.sem) hsc)}
    {α : Type} {Q : α → sProp 𝕄} {k : PUnit → Prog (TpuEff nD τ sig (Elt F) Λ₀ .tc) α}
    (fn : Buf (Elt F) ((dstV c).view.loc (peer c : Thread nD τ))) (W : Waits sig Unit) :
    iprop(cellInv ER (a2aRd m) (K (c, 1)) (sendCell c) ∗ cellInv ER (a2aRd m) (K (peer c, 2)) (recvCell (peer c))
        ∗ colsPts m c ∗ rowsPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcV c) (.remote (Dev.tc n : Thread nD τ) (dstV c) (.dma sendS.sem) hsc) (.dma recvS.sem) hsrc hdst hsem) k) Q) := by
  subst hn
  unfold colsPts rowsPts
  exact Rounds.wp_send_pointsTo 𝒱₀ ER (a2aRd m) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N (show (dstV c).view.amount (SemLoc.dma recvS.sem) = N from N_dst c) (amount_send m c ()) (amount_recv m (peer c) ()) 0 (by rw [zero_add]) (W := W)
    (by rw [payload_send]; exact BI.Entails.refl _)
    (by rw [payload_recv]; unfold recvPay rowsPts; rw [peer_peer]; exact Entails.of_eq (pointsTo_congr (landed_eq m c fn)))

set_option maxRecDepth 20000 in
set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) xM (Memref.isWhole_whole _) oM (Memref.isWhole_whole _) vM (Memref.isWhole_whole _)
            cc0_scratch1 cc0_scratch2 cc0_scratch3 cc0_scratch4) Kt := by
  unfold bodyPre ghost invs locals
  iintro ⟨⟨⟨⟨#HIbar, #HIsnd, #HIrcv, #HIbarP, #HIrcvP⟩, HatB, HatS, HatV, #HrBP, #HrVP, #HrS, #HrV, HtBP, HtVP, HtS⟩,
    ⟨Hl0, Hl1, Hl2, Hl3⟩, HcB, HcV, #Hlev, Hx, Ho, ⟨%fv, Hv⟩, Howes⟩, Hk⟩
  unfold Dat.owesAt Pipeline.owesWithin
  icases Howes with ⟨%W, %hW, HO⟩
  rw [show (dats m 0 c).owed t₀.castSucc = O₀ c from rfl]
  ihave HcV := (aside_intro _) $$ HcV
  -- the argument block by shares: the left half for the send, the right half for the local copies
  ihave Hxs := (pointsTo_share (PosShare.mem_left_op_right fullShare)).1 $$ Hx
  icases Hxs with ⟨HxL, HxR⟩
  ihave HxLs := (pointsTo_split_subset (Finset.subset_univ ((srcV c).view.set))).1 $$ HxL
  icases HxLs with ⟨HxS, HxL⟩
  -- the result by rows: the rows peer c's block fills, and the rest
  ihave Hos := (pointsTo_split_subset (Finset.subset_univ ((dstV (peer c)).view.set))).1 $$ Ho
  icases Hos with ⟨HoP, Ho⟩
  rw [cc0_body_eq_skeleton]; unfold cc0_body_skel
  sl_exec
  -- the signal to peer c's barrier cell: c's rows for peer c's block, and that c is at round 0 of its receive cell
  rw [show (⟨k0_dev1 (c : Thread nD τ).1, k0_dev1_lt _⟩ : Dev nD) = peer c from dev1_eq c]
  unfold O₀
  iapply (Rounds.wp_signal 𝒱₀ ER (a2aRd m) (c : Thread nD τ) none (dst := (peer c : Thread nD τ)) (κ := K (peer c, 0))
      (d := ()) (by rw [duties_bar]; exact Finset.mem_singleton_self _) ((amount_bar m (peer c) ()).trans (by decide)) ()
      (tallyAt (recvCell (peer c)) () N) rfl) $$ [HO HtBP HoP]
  · isplitr; · iexact HIbarP
    isplitl [HO]; · iexact HO
    isplitl [HtBP]; · iexact HtBP
    isplitl [HoP]
    · rw [payload_bar]; unfold barPay; rw [peer_peer]
      isplitl [HoP]
      · iexists _; unfold rowsPts; iexact HoP
      iexact HrV
    · iexact HrBP
  iintro HO
  sl_exec
  -- the wait on its own barrier cell, owing peer c's receive credit: peer c's rows come with it
  iapply (Rounds.wp_wait_rest_token 𝒱₀ ER (a2aRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HoN⟩, #HrVP'⟩
  sl_exec
  -- the transfer to peer c
  iapply (wp_send_a2a m K c _ (dev2_eq c) fn (insert (SemLoc.reg barS, ()) W)) $$ [HxS HoN HO HtS HtVP]
  · isplitr; · iexact HIsnd
    isplitr; · iexact HIrcvP
    isplitl [HxS]; · unfold colsPts; iexact HxS
    isplitl [HoN]; · iexact HoN
    isplitl [HO]; · iexact HO
    isplitl [HtS]; · iexact HtS
    isplitr; · iexact HrS
    isplitl [HtVP]; · iexact HtVP
    iexact HrVP
  iintro ⟨HcS, HO⟩
  ihave HcS := (aside_intro _) $$ HcS
  -- the local copies, tile by tile: each tile of c's rows lies off the rows given to peer c
  have hd0 : Disjoint (oM.slice (Rect.unit (s := S16384x1024) (k0_off4 c 0#32) S1024x1024.size (k0_off4_inb c 0)) (fun _ => rfl)).view.set (dstV (peer c)).view.set := tile_disjoint c 0
  have hd1 : Disjoint (oM.slice (Rect.unit (s := S16384x1024) (k0_off4 c 1024#32) S1024x1024.size (k0_off4_inb c 1)) (fun _ => rfl)).view.set (dstV (peer c)).view.set := tile_disjoint c 1
  have hd2 : Disjoint (oM.slice (Rect.unit (s := S16384x1024) (k0_off4 c 2048#32) S1024x1024.size (k0_off4_inb c 2)) (fun _ => rfl)).view.set (dstV (peer c)).view.set := tile_disjoint c 2
  have hd3 : Disjoint (oM.slice (Rect.unit (s := S16384x1024) (k0_off4 c 3072#32) S1024x1024.size (k0_off4_inb c 3)) (fun _ => rfl)).view.set (dstV (peer c)).view.set := tile_disjoint c 3
  have hd4 : Disjoint (oM.slice (Rect.unit (s := S16384x1024) (k0_off4 c 4096#32) S1024x1024.size (k0_off4_inb c 4)) (fun _ => rfl)).view.set (dstV (peer c)).view.set := tile_disjoint c 4
  have hd5 : Disjoint (oM.slice (Rect.unit (s := S16384x1024) (k0_off4 c 5120#32) S1024x1024.size (k0_off4_inb c 5)) (fun _ => rfl)).view.set (dstV (peer c)).view.set := tile_disjoint c 5
  have hd6 : Disjoint (oM.slice (Rect.unit (s := S16384x1024) (k0_off4 c 6144#32) S1024x1024.size (k0_off4_inb c 6)) (fun _ => rfl)).view.set (dstV (peer c)).view.set := tile_disjoint c 6
  have hd7 : Disjoint (oM.slice (Rect.unit (s := S16384x1024) (k0_off4 c 7168#32) S1024x1024.size (k0_off4_inb c 7)) (fun _ => rfl)).view.set (dstV (peer c)).view.set := tile_disjoint c 7
  sl_exec
  -- the wait on its send cell: the columns it sent come back
  ihave HcS := (aside_elim _) $$ HcS
  iapply (Rounds.wp_wait_rest_token 𝒱₀ ER (a2aRd m) (c : Thread nD τ) none (κ := K (c, 1))
      (wpE_waitDma2_eq 𝒱₀ (c : Thread nD τ) none Set.univ) (Set.mem_univ _) () (O := 0) (R := 0) (m := 0) (T := ∅)
      (by rw [Nat.zero_add, expect_send]; exact N_src c)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HxS := (Entails.of_eq (rest_send' m c)) $$ Hpay
  sl_exec
  -- the wait on its receive cell: the rows peer c's block filled come back
  ihave HcV := (aside_elim _) $$ HcV
  iapply (Rounds.wp_wait_rest_token 𝒱₀ ER (a2aRd m) (c : Thread nD τ) none (κ := K (c, 2))
      (wpE_waitDma2_eq 𝒱₀ (c : Thread nD τ) none Set.univ) (Set.mem_univ _) () (O := 0) (R := 0) (m := 0) (T := ∅)
      (by rw [Nat.zero_add, expect_recv]; exact N_dst c)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HoP := (Entails.of_eq (rest_recv' m c)) $$ Hpay
  sl_exec
  -- c's own two shared cells close: their counters at zero are the core's again
  imod (Rounds.cell_close ER (a2aRd m) (Set.mem_univ (K (c, 1))) (fun h => h) (R := 0 + 1) (duties_later m (sendCell c))) $$ [HatS] with HzS
  · isplitr; · iexact HIsnd
    iexact HatS
  imod (Rounds.cell_close ER (a2aRd m) (Set.mem_univ (K (c, 2))) (fun h => h) (R := 0 + 1) (duties_later m (recvCell c))) $$ [HatV] with HzV
  · isplitr; · iexact HIrcv
    iexact HatV
  -- the argument block whole again
  ihave HxL := (pointsTo_split_subset (ℓ := xM.view.loc (c : Thread nD τ)) (q := fullShare.left) (f := m ((c : Thread nD τ).loc main_arg0)) (Finset.subset_univ ((srcV c).view.set))).2 $$ [HxS HxL]
  · isplitl [HxS] <;> iassumption
  ihave Hx := (pointsTo_share (ℓ := xM.view.loc (c : Thread nD τ)) (I := Finset.univ) (f := m ((c : Thread nD τ).loc main_arg0)) (PosShare.mem_left_op_right fullShare)).2 $$ [HxL HxR]
  · isplitl [HxL] <;> iassumption
  -- the result whole: each tile of c's own rows holds what the store read off the scratch half the load before it filled
  have hval : ∀ i ∈ Finset.univ \ (dstV (peer c)).view.set, sound_body.sl.Ho_w15 m c fv i = outFinal m c i := by
    have h := own_rows_eq m c (sound_body.sl.dma0_1 m c fv) (sound_body.sl.dma0_3 m c fv) (sound_body.sl.dma0_5 m c fv) (sound_body.sl.dma0_7 m c fv) (sound_body.sl.dma0_9 m c fv) (sound_body.sl.dma0_11 m c fv) (sound_body.sl.dma0_13 m c fv) (sound_body.sl.dma0_15 m c fv)
      (by unfold sound_body.sl.dma0_1 sound_body.sl.dma0; rw [View.read_write_univ])
      (by unfold sound_body.sl.dma0_3 sound_body.sl.dma0_2; rw [View.read_write_univ])
      (by unfold sound_body.sl.dma0_5 sound_body.sl.dma0_4; rw [View.read_write_univ])
      (by unfold sound_body.sl.dma0_7 sound_body.sl.dma0_6; rw [View.read_write_univ])
      (by unfold sound_body.sl.dma0_9 sound_body.sl.dma0_8; rw [View.read_write_univ])
      (by unfold sound_body.sl.dma0_11 sound_body.sl.dma0_10; rw [View.read_write_univ])
      (by unfold sound_body.sl.dma0_13 sound_body.sl.dma0_12; rw [View.read_write_univ])
      (by unfold sound_body.sl.dma0_15 sound_body.sl.dma0_14; rw [View.read_write_univ])
    unfold sound_body.sl.Ho_w15 sound_body.sl.Ho_w13 sound_body.sl.Ho_w11 sound_body.sl.Ho_w9 sound_body.sl.Ho_w7 sound_body.sl.Ho_w5 sound_body.sl.Ho_w3 sound_body.sl.Ho_w1
    exact h
  ihave Ho := (Entails.of_eq (pointsTo_congr (ℓ := oM.view.loc (c : Thread nD τ)) (q := fullShare) hval)) $$ Ho
  ihave Ho := (pointsTo_split_subset (ℓ := oM.view.loc (c : Thread nD τ)) (q := fullShare) (f := outFinal m c) (Finset.subset_univ ((dstV (peer c)).view.set))).2 $$ [HoP Ho]
  · isplitl [HoP] <;> iassumption
  rw [wp_ret]; imodintro
  iapply Hk
  unfold bodyPost Φ₁ locals Dat.owesAt Pipeline.owesWithin
  rw [show (dats m 0 c).owed t₀.succ = 0 from rfl]
  isplitr [HO]
  · isplitl [Hx]; · iexact Hx
    isplitl [Ho]; · iexact Ho
    isplitl [Hv]; · iexists _; iexact Hv
    isplitl [Hl0 Hl1 Hl2 Hl3]
    · isplitl [Hl0]; · iexact Hl0
      isplitl [Hl1]; · iexact Hl1
      isplitl [Hl2]; · iexact Hl2
      iexact Hl3
    isplitl [HzS]; · iexact HzS
    iexact HzV
  · iexists _
    isplitr
    rotate_left
    · iexact HO
    · ipureintro; exact fun _ _ => Or.inl trivial

/-- info: 'Cert.Kernel.A2A.sound_body' depends on axioms: [propext, Classical.choice, Quot.sound] -/
#guard_msgs in #print axioms sound_body

/-- The library's body obligation on device c: the invariant before the point, opened at some names of the cells. -/
theorem body_obligation (c : Dev nD) : BodyObligation (dats (F := F) m 0 c) (defs₀ (F := F)) 𝒱₀ () Set.univ := fun t => by
  rw [fin_N t]
  simp only [Finset.univ_eq_empty, BI.bigSep_empty]
  show iprop(Φ₀ m c ∗ (dats m 0 c).owesAt () t₀.castSucc ∗ emp) ⊢ wp frame (wpE (defs₀ (F := F)) 𝒱₀ c none) Set.univ
    (cc0_body (F := F) xM (Memref.isWhole_whole _) oM (Memref.isWhole_whole _) vM (Memref.isWhole_whole _)
      cc0_scratch1 cc0_scratch2 cc0_scratch3 cc0_scratch4) (fun _ => iprop(Φ₁ m c ∗ (dats m 0 c).owesAt () t₀.succ ∗ emp))
  unfold Φ₀ start
  iintro ⟨⟨⟨⟨%K, Hg⟩, Hloc, HcB, HcV, Hlev⟩, Hx, Ho, Hv⟩, Howes, -⟩
  iapply (sound_body m K c fun _ => iprop(Φ₁ m c ∗ (dats m 0 c).owesAt () t₀.succ ∗ emp))
  unfold bodyPre bodyPost
  isplitr []
  · isplitl [Hg]; · iexact Hg
    isplitl [Hloc]; · iexact Hloc
    isplitl [HcB]; · iexact HcB
    isplitl [HcV]; · iexact HcV
    isplitl [Hlev]; · iexact Hlev
    isplitl [Hx]; · iexact Hx
    isplitl [Ho]; · iexact Ho
    isplitl [Hv]; · iexact Hv
    iexact Howes
  · iintro ⟨H1, H2⟩
    isplitl [H1]; · iexact H1
    isplitl [H2]; · iexact H2
    iempintro

end Body

end Cert.Kernel.A2A

end
-- ==== Proof.KernelLaunch.lean ====
/-
The launch of the exchange: from "every device's body is proved" to the run of the whole program.

The launch element is split between the pipeline library's copy of the rounds algebra (no staging cell: the kernel
has no window) and the exchange's own copy, which funds three cells per device: barrier, send, receive. Each cell has
one duty at round 0. The duty tokens are dealt along the pairing c ↦ peer c: the token of c's barrier cell and the
token of c's receive cell go to peer c, who pays them; the token of c's send cell stays with c. The cells' invariants
are allocated for all devices under one update, because the barrier semaphore is not scoped to the launch and its
cell is shared by the pair. The four semaphores of a device's local copies travel as plain counters at zero.

What a device owes at launch is the block's credit to its peer's receive cell and one unit to its peer's barrier
cell; so the launch deals each device exactly that credit on its own receive and barrier cells.

The two arrays are not staged: they arrive as the unscoped rest, travel through the point, and are read against the
final state, which gives the result at the exchange's values and the argument unchanged.
-/
import proofs.«900626_g7700000000000627_dist_a2a_v7x_xyz2x2x2_y_m8192_n1024_f32_1_alg».proof.Proof.KernelProto
import proofs.«900626_g7700000000000627_dist_a2a_v7x_xyz2x2x2_y_m8192_n1024_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the launch element -/

theorem ownSemFacts : Pipeline.OwnSemFacts cfg0.spec osem := by decide

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- A cell's one duty token as minted: round 0, the duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def pairToks : Finset (GSem nD τ sig × ℕ × Unit) := Finset.univ.map ⟨tokOf, tokOf_injective⟩

/-- The launch element: the pipeline library's copy (no staging cell), the exchange's cells and tokens, the counters' unit. -/
def u₀ : UU :=
  (initOf (Pipeline.cells cfgs cellOf_inj) (Pipeline.launchToks cfgs cellOf_inj), (initOf pairCells pairToks, 1))

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (a2aRd m) (kcell (c, k)) 0)
    ∗ (bigSep Finset.univ fun k : Fin 3 => iprop(atPos ER (kcell (c, k)) 0 ∅ 0 ∗ reached ER (kcell (c, k)) 0)) ∗ toks c)

/-- What the global step makes of it: the ghost state and the local copies' counters. -/
def G' (c : Dev nD) : sProp 𝕄 := iprop((∃ K, ghost m K c) ∗ locals c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (a2aRd m) pairCells pairToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero: the kernel's own six, and the barrier semaphore -/

/-- The kernel's own six: the four of the local copies, send, receive. -/
theorem ownSems0_eq (c : Dev nD) : (Pipeline.ownSems0 (Ix := Unit) (Name := ℕ) (U := UU) (Lvl := ℕ) (Val := Elt F) (τ := τ) osem c : sProp 𝕄)
    = iprop(semVal (lcell c 0) 0 ∗ semVal (lcell c 1) 0 ∗ semVal (lcell c 2) 0 ∗ semVal (lcell c 3) 0
        ∗ semVal (sendCell c) 0 ∗ semVal (recvCell c) 0) := by
  rw [Pipeline.ownSems0_eq_of_list c osem [0, 1, 2, 3, 4, 5] (by decide) (by decide)]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 3 => semVal (kcell (c, k)) 0) ∗ locals c) : sProp 𝕄) := by
  rw [ownSems0_eq, unscopedSems0_eq, bigSep_fin3]
  unfold locals
  iintro ⟨⟨H0, H1, H2, H3, HS, HV⟩, HB⟩
  isplitl [HB HS HV]
  · isplitl [HB]; · iexact HB
    isplitl [HS] <;> iassumption
  isplitl [H0]; · iexact H0
  isplitl [H1]; · iexact H1
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 3 => semVal (kcell (c, k)) 0) ∗ bigSep Finset.univ fun k : Fin 3 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The tokens dealt along the pairing; the ghost state regrouped -/

def records (K : Dev nD × Fin 3 → ℕ) : sProp 𝕄 :=
  iprop((bigSep Finset.univ fun ck : Dev nD × Fin 3 => cellInv ER (a2aRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (a2aRd m) (K ck) (kcell ck) : sProp 𝕄)) ⊢ cellInv ER (a2aRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device c pays: its peer's barrier duty, its peer's receive duty, its own send duty. -/
def payToks (c : Dev nD) : sProp 𝕄 :=
  iprop(dutyTok ER (barCell (peer c)) 0 () ∗ dutyTok ER (recvCell (peer c)) 0 () ∗ dutyTok ER (sendCell c) 0 ())
/-- What stays with device c alone: its positions, the tokens it pays with, its local copies' counters. -/
def linear (c : Dev nD) : sProp 𝕄 :=
  iprop((atPos ER (barCell c) 0 ∅ 0 ∗ atPos ER (sendCell c) 0 ∅ 0 ∗ atPos ER (recvCell c) 0 ∅ 0) ∗ payToks c ∗ locals c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, ⟨HtB, HtV, HtS⟩, Hloc⟩
  isplitr [Hloc]
  · iexists K
    isplitr
    · isplitr; · iapply (inv_at m K (c, 0)); iexact HI
      isplitr; · iapply (inv_at m K (c, 1)); iexact HI
      isplitr; · iapply (inv_at m K (c, 2)); iexact HI
      isplitr; · iapply (inv_at m K (peer c, 0)); iexact HI
      iapply (inv_at m K (peer c, 2)); iexact HI
    isplitl [HaB]; · iexact HaB
    isplitl [HaS]; · iexact HaS
    isplitl [HaV]; · iexact HaV
    isplitr; · iapply (reached_at (F := F) (peer c, 0)); iexact HR
    isplitr; · iapply (reached_at (F := F) (peer c, 2)); iexact HR
    isplitr; · iapply (reached_at (F := F) (c, 1)); iexact HR
    isplitr; · iapply (reached_at (F := F) (c, 2)); iexact HR
    isplitl [HtB]; · iexact HtB
    isplitl [HtV]; · iexact HtV
    iexact HtS
  · iexact Hloc

/-- The tokens dealt along the pairing: a barrier cell's token and a receive cell's token go to the peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro :
    iprop((bigSep Finset.univ fun c : Dev nD => bigSep Finset.univ fun k : Fin 3 => (atPos ER (kcell (c, k)) 0 ∅ 0 : sProp 𝕄))
      ∗ (bigSep Finset.univ fun c : Dev nD => (payToks c : sProp 𝕄)) ∗ (bigSep Finset.univ fun c : Dev nD => (locals c : sProp 𝕄)))
    ⊢ bigSep Finset.univ fun c : Dev nD => (linear c : sProp 𝕄) := by
  rw [← bigSep_sep', ← bigSep_sep']
  exact bigSep_mono fun c _ => show _ ⊢ linear c from Entails.of_eq (by unfold linear; rw [bigSep_fin3])

theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × Fin 3 => iprop(∃ κ : ℕ, cellInv ER (a2aRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hloc⟩
  ihave HK := (BI.bigSep_exists_pi Finset.univ (fun (ck : Dev nD × Fin 3) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact Hloc

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device d owes device c's barrier cell: one unit if d is c's peer. -/
theorem owed_bar (d c : Dev nD) : O₀ d (barCell c) () = if d = peer c then 1 else 0 := by
  unfold O₀
  rw [Pi.add_apply, Finsupp.add_apply, tallyAt_ne_cell (g := recvCell (peer d)) (fun h => recv_ne_bar (congrArg Prod.snd h).symm),
    tallyAt_apply (barCell (peer d)), Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device d owes device c's receive cell: the block's credit if d is c's peer. -/
theorem owed_recv (d c : Dev nD) : O₀ d (recvCell c) () = if d = peer c then N else 0 := by
  unfold O₀
  rw [Pi.add_apply, Finsupp.add_apply, tallyAt_apply (recvCell (peer d)),
    tallyAt_ne_cell (g := barCell (peer d)) (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The theorem's side conditions -/

/-- What a device holds between the launch and its body: the body's start and the two arrays as launched. -/
def X (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))

/-- What it holds after the region: the argument as launched, the result at the exchange's values. -/
def Y (c : Dev nD) : sProp 𝕄 :=
  iprop((((c : Thread nD τ).loc main_arg0) ↦{fullShare} m ((c : Thread nD τ).loc main_arg0))
    ∗ (((c : Thread nD τ).loc main_v1) ↦{fullShare} outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, ⟨HG, Hloc⟩⟩
  ihave Hc := (creds (F := F) c) $$ Hcr
  icases Hc with ⟨H1, HN⟩
  imodintro
  unfold X start
  isplitl
  · isplitl [HG Hloc H1 HN Hlev]
    · isplitl [HG]; · iexact HG
      isplitl [Hloc]; · iexact Hloc
      isplitl [H1]; · iexact H1
      isplitl [HN]; · iexact HN
      iexact Hlev
    isplitl [Hx]; · iexact Hx
    iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Ho⟩, -, ⟨%f, Hr⟩⟩
  isplitl [Hs]; · iexact Hs
  isplitl [Hx]; · iexact Hx
  isplitl [Ho]; · iexact Ho
  iexists f; iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y locals
  iintro ⟨Hx, Ho, ⟨%f, Hv⟩, ⟨H0, H1, H2, H3⟩, HS, HR⟩
  isplitl [Hx Ho]
  · isplitl [Hx]; · iexact Hx
    iexact Ho
  isplitl [H0 H1 H2 H3 HS HR]
  · isplitl [H0]; · iexact H0
    isplitl [H1]; · iexact H1
    isplitl [H2]; · iexact H2
    isplitl [H3]; · iexact H3
    isplitl [HS]; · iexact HS
    iexact HR
  iexists f; iexact Hv

/-- No window: the pipeline waits on no cell. -/
theorem waits (c : Dev nD) : (levAts L lv : sProp 𝕄) ⊢ Pipeline.cellsWaits cfgs (dats m) () 0 c :=
  Pipeline.cellsWaits_intro cfgs (dats m) () 0 c fun w s t => w.elim0

/-- Reading the two arrays against the final state. -/
theorem final_read (c : Dev nD) (s' : Phys nD τ sig (Elt F)) :
    iprop(Y m c ∗ (emp : sProp 𝕄) ∗ SI s')
      ⊢ |={Set.univ}=> iprop(⌜s'.mem.mem ((c : Thread nD τ).loc main_v1) = outFinal m c
          ∧ s'.mem.mem ((c : Thread nD τ).loc main_arg0) = m ((c : Thread nD τ).loc main_arg0)⌝ ∗ SI s') := by
  unfold Y
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

/-! ## The run -/

set_option maxRecDepth 8000 in
/-- At the compiled mesh of eight devices, for any float values, from any memory with zero counters: if every device's body
    meets its obligation, every weakly fair execution of @main — the pairs handshaking on the barrier semaphore, then
    exchanging their blocks — terminates, and every final state has each device's result at the exchange's values and its
    argument unchanged. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = outFinal m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = outFinal m c ∧ s.mem ((c : Thread nD τ).loc main_arg0) = m ((c : Thread nD τ).loc main_arg0))
    (hY := final_read m)
    (hQ := fun _ h c => (h c).2.2)

/-- info: 'Cert.Kernel.A2A.run_main' depends on axioms: [propext, Classical.choice, Quot.sound] -/
#guard_msgs in #print axioms run_main

end Cert.Kernel.A2A

end
-- ==== Proof.RefValue.lean ====
/-
The reference program and the value of the exchange.

The reference runs on one device over the whole array f32[16384, 2048] and returns it as it is: its
program is the empty list of operations, so every execution ends at once with the array unchanged.

The whole array is cut two ways. Along dimension 0 into two blocks of 8192 rows: device c's argument
is the block its y-coordinate names. Along dimension 1 into two blocks of 1024 columns: device c's
result must be the block its y-coordinate names. Entry (r, col) of that result block is entry
(r, 1024·y + col) of the whole array, y the device's y-coordinate; row r of the whole array lies in
the row block r / 8192, at row r % 8192 of it, and of the pair of devices that differ only in y the
one holding that row block is the one whose y-coordinate is r / 8192.
-/
import proofs.«900626_g7700000000000627_dist_a2a_v7x_xyz2x2x2_y_m8192_n1024_f32_1_alg».proof.Defs
import proofs.«900626_g7700000000000627_dist_a2a_v7x_xyz2x2x2_y_m8192_n1024_f32_1_alg».proof.Proof.KernelIdealSpec
import Idealize.ShloMosaic.Lib.Layout
import Idealize.ShloMosaic.Lib.ValueIdx
import Idealize.ShloMosaic.Lib.StableHlo.Run

noncomputable section

namespace Cert.RefValue

open Idealize.ShloMosaic Idealize.ShloMosaic.TcCoe Idealize.SL.Sem

/-! ## The reference's run -/

/-- The reference's signature scopes no buffer. -/
theorem ref_scopedRefs :
    (Finset.univ.filter fun b : Ref Cert.ReferenceIdeal.sig .tc => b.isScoped) = ∅ := by decide

/-- The reference's signature scopes no semaphore. -/
theorem ref_scopedSems :
    (Finset.univ.filter fun sm : SemLoc Cert.ReferenceIdeal.sig => sm.isScoped .tc) = ∅ := by decide

/-- The reference's run: it ends at once with its one array unchanged. -/
theorem ref_run [Cert.ReferenceIdeal.Facts]
    (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD, r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run (Cert.ReferenceIdeal.defs (F := Ideal)) _ _).mono (fun _ h c => h c Cert.ReferenceIdeal.main_arg0)
    (StableHlo.run_seq ref_scopedRefs ref_scopedSems (Cert.ReferenceIdeal.defs (F := Ideal)) (Cert.ReferenceIdeal.main (F := Ideal))
      (fun _ => []) (fun _ => rfl) (fun _ => trivial) m' g' (fun _ _ h => nomatch h))

/-! ## The value -/

open Cert.KernelIdeal Cert.KernelIdeal.A2A in
/-- Of the pair of devices that differ only in y, the one row r of the result is read from has
    y-coordinate r / 8192. -/
theorem yc_srcDev (c : Dev Cert.KernelIdeal.nD) (r : ℕ) (hr : r < 16384) :
    yc (srcDev c r) = r / 8192 := by
  have hc := yc_lt c
  have hq : r / 8192 < 2 := by omega
  show yc (if r / 8192 = yc c then c else peer c) = r / 8192
  split
  · next h => exact h.symm
  · next h => rw [yc_peer]; omega

/-- The block a device holds of a dimension cut along mesh axis y is the one its y-coordinate names. -/
theorem meshLin_y : ∀ c : Fin 8, Layout.meshLin [2, 2, 2] c.val [1] = (c.val / 2) % 2 := by decide

/-- A dimension that is not cut is one block. -/
theorem meshLin_nil (c : ℕ) : Layout.meshLin [2, 2, 2] c [] = 0 := rfl

open Cert.KernelIdeal Cert.KernelIdeal.A2A in
/-- The value: under the agreement of the devices' argument blocks with the reference's array, the
    exchange's result on device c is that device's column block of the reference's array. -/
theorem out_block [Cert.KernelIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.A2A.outFinal m c = Layout.blockN ⟨2, ![16384, 1024]⟩ ⟨2, ![16384, 2048]⟩ (Layout.meshBlock [2, 2, 2] ![[], [1]] c) (m' (((0 : Dev Cert.ReferenceIdeal.nD).tc : Thread Cert.ReferenceIdeal.nD Cert.ReferenceIdeal.τ).loc Cert.ReferenceIdeal.main_arg0)) := by
  funext i
  show m (((srcDev c (i 0).val).tc : Thread Cert.KernelIdeal.nD Cert.KernelIdeal.τ).loc Cert.KernelIdeal.main_arg0) (srcIdx c i) = _
  rw [hagree (srcDev c (i 0).val), Layout.blockN_apply, Layout.blockN_apply]
  congr 1
  funext b
  apply Fin.ext
  rw [Layout.TilesN.idx_val, Layout.TilesN.idx_val, Layout.meshBlock_val, Layout.meshBlock_val]
  match b with
  | ⟨0, _⟩ =>
    -- rows: block y' = r / 8192 of the row cut, at row r % 8192 of it, is row r of the whole array
    have hr : (i 0).val < 16384 := (i 0).isLt
    have hy : ((srcDev c (i 0).val).val / 2) % 2 = (i 0).val / 8192 := yc_srcDev c (i 0).val hr
    show Layout.meshLin [2, 2, 2] (srcDev c (i 0).val).val [1] * 8192 + (i 0).val % 8192
        = Layout.meshLin [2, 2, 2] c.val [] * 16384 + (i 0).val
    rw [meshLin_y, meshLin_nil]
    omega
  | ⟨1, _⟩ =>
    -- columns: column 1024·y + col of an uncut row is column col of column block y
    show Layout.meshLin [2, 2, 2] (srcDev c (i 0).val).val [] * 2048 + (1024 * ((c.val / 2) % 2) + (i 1).val)
        = Layout.meshLin [2, 2, 2] c.val [1] * 1024 + (i 1).val
    rw [meshLin_y, meshLin_nil]
    omega

end Cert.RefValue

end

/-- info: 'Cert.RefValue.ref_run' depends on axioms: [propext, Classical.choice, Quot.sound] -/
#guard_msgs in #print axioms Cert.RefValue.ref_run
/-- info: 'Cert.RefValue.out_block' depends on axioms: [propext, Classical.choice, Quot.sound] -/
#guard_msgs in #print axioms Cert.RefValue.out_block
-- ==== Proof.lean ====
/- The exchange between the two devices of each pair along the mesh axis y, against the identity on the whole array.

   Each of the eight devices holds a block of 8192 rows of the 16384 × 2048 array (cut along the rows by the device's
   y-coordinate) and must end holding a block of 1024 columns (cut along the columns by the same coordinate). A device
   copies its own columns of its own rows itself and receives the other 8192 rows from its partner, whose y-coordinate is
   the other one. The three frames and the value claim are the run of the whole mesh, proved once for any float
   instance from each device's body; the reference returns its argument. -/
import proofs.«900626_g7700000000000627_dist_a2a_v7x_xyz2x2x2_y_m8192_n1024_f32_1_alg».proof.Defs
import proofs.«900626_g7700000000000627_dist_a2a_v7x_xyz2x2x2_y_m8192_n1024_f32_1_alg».proof.Proof.Gen.Kernel
import proofs.«900626_g7700000000000627_dist_a2a_v7x_xyz2x2x2_y_m8192_n1024_f32_1_alg».proof.Proof.Gen.Kernel.Skeleton
import proofs.«900626_g7700000000000627_dist_a2a_v7x_xyz2x2x2_y_m8192_n1024_f32_1_alg».proof.Proof.Gen.Kernel.Launch
import proofs.«900626_g7700000000000627_dist_a2a_v7x_xyz2x2x2_y_m8192_n1024_f32_1_alg».proof.Proof.Gen.Kernel.Points
import proofs.«900626_g7700000000000627_dist_a2a_v7x_xyz2x2x2_y_m8192_n1024_f32_1_alg».proof.Proof.Gen.Kernel.Frame
import proofs.«900626_g7700000000000627_dist_a2a_v7x_xyz2x2x2_y_m8192_n1024_f32_1_alg».proof.Proof.Gen.KernelIdeal
import proofs.«900626_g7700000000000627_dist_a2a_v7x_xyz2x2x2_y_m8192_n1024_f32_1_alg».proof.Proof.Gen.KernelIdeal.Skeleton
import proofs.«900626_g7700000000000627_dist_a2a_v7x_xyz2x2x2_y_m8192_n1024_f32_1_alg».proof.Proof.Gen.KernelIdeal.Launch
import proofs.«900626_g7700000000000627_dist_a2a_v7x_xyz2x2x2_y_m8192_n1024_f32_1_alg».proof.Proof.Gen.KernelIdeal.Points
import proofs.«900626_g7700000000000627_dist_a2a_v7x_xyz2x2x2_y_m8192_n1024_f32_1_alg».proof.Proof.Gen.KernelIdeal.Frame
import proofs.«900626_g7700000000000627_dist_a2a_v7x_xyz2x2x2_y_m8192_n1024_f32_1_alg».proof.Proof.Gen.ReferenceIdeal
import proofs.«900626_g7700000000000627_dist_a2a_v7x_xyz2x2x2_y_m8192_n1024_f32_1_alg».proof.Proof.Gen.Pre_finite_inputs_Kernel
import proofs.«900626_g7700000000000627_dist_a2a_v7x_xyz2x2x2_y_m8192_n1024_f32_1_alg».proof.Proof.Gen.Pre_finite_inputs_ReferenceIdeal
import Idealize.ShloMosaic.Adequacy
import Idealize.ShloMosaic.Init
import proofs.«900626_g7700000000000627_dist_a2a_v7x_xyz2x2x2_y_m8192_n1024_f32_1_alg».proof.Proof.KernelIdealBody
import proofs.«900626_g7700000000000627_dist_a2a_v7x_xyz2x2x2_y_m8192_n1024_f32_1_alg».proof.Proof.KernelIdealLaunch
import proofs.«900626_g7700000000000627_dist_a2a_v7x_xyz2x2x2_y_m8192_n1024_f32_1_alg».proof.Proof.KernelBody
import proofs.«900626_g7700000000000627_dist_a2a_v7x_xyz2x2x2_y_m8192_n1024_f32_1_alg».proof.Proof.KernelLaunch
import proofs.«900626_g7700000000000627_dist_a2a_v7x_xyz2x2x2_y_m8192_n1024_f32_1_alg».proof.Proof.RefValue

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level kernel runs and leaves its argument blocks as they were
  fun m g _ => (θ_run (Cert.Kernel.defs (F := Bits)) _ _).mono (fun _ h c => (h c).2)
    (Cert.Kernel.A2A.run_main (F := Bits) m g (Cert.Kernel.A2A.body_obligation (F := Bits) m)),
  -- so does the idealized kernel
  fun m g _ => (θ_run (Cert.KernelIdeal.defs (F := Ideal)) _ _).mono (fun _ h c => (h c).2)
    (Cert.KernelIdeal.A2A.run_main (F := Ideal) m g (Cert.KernelIdeal.A2A.body_obligation (F := Ideal) m)),
  -- the reference returns at once
  fun m g _ => Cert.RefValue.ref_run m g,
  trivial,
  -- each device's result is its block of columns of the whole array, which is what the reference returns
  fun m g m' g' _ hagree =>
    ⟨m' (((0 : Dev Cert.ReferenceIdeal.nD).tc : Thread Cert.ReferenceIdeal.nD Cert.ReferenceIdeal.τ).loc Cert.ReferenceIdeal.main_arg0),
      (θ_run (Cert.KernelIdeal.defs (F := Ideal)) _ _).mono
        (fun _ h c => ⟨(h c).1.trans (Cert.RefValue.out_block m m' hagree c), (h c).2⟩)
        (Cert.KernelIdeal.A2A.run_main (F := Ideal) m g (Cert.KernelIdeal.A2A.body_obligation (F := Ideal) m)),
      (θ_run (Cert.ReferenceIdeal.defs (F := Ideal)) _ _).mono (fun _ h => ⟨h 0, h 0⟩) (Cert.RefValue.ref_run m' g')⟩⟩

end Cert.Proof

end
